-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2x128 : Shape := ⟨3, ![512, 2, 128]⟩
abbrev S512x1 : Shape := ⟨2, ![512, 1]⟩
abbrev S_ : Shape := ⟨0, ![]⟩

class Facts : Prop where
  bcast_S_S512x2x128 : S_.BroadcastsInDim S512x2x128 (![] : Fin 0 → Fin S512x2x128.rank)
  reducesTo_S512x2x128_S_d0_1_2 : S512x2x128.ReducesTo [0, 1, 2] S_
  h_S_ : 0 < S_.numel
  bcast_S_S512x1 : S_.BroadcastsInDim S512x1 (![] : Fin 0 → Fin S512x1.rank)
  reducesTo_S512x1_S_d0_1 : S512x1.ReducesTo [0, 1] S_

variable [Facts]

def fn {F : FTy → Type} [FloatOps F] (main_arg0 : FVec F S512x2x128 .f32) (main_arg1 : FVec F S512x1 .f32) : IVec S_ 1 :=
  let main_v0 : FVec F S512x2x128 .f32 := Host.absf main_arg0
  let main_cst : FVec F S_ .f32 := constant S_ .f32 0x7F800000#32
  let main_v1 : FVec F S512x2x128 .f32 := broadcastInDim S512x2x128 ![] bcast_S_S512x2x128 main_cst
  let main_v2 : IVec S512x2x128 1 := cmpf .olt main_v0 main_v1
  let main_c : IVec S_ 1 := constantI S_ 1 1#1
  let main_v3 : IVec S_ 1 := (fun x v => Host.reduce IntOp.andi x v reducesTo_S512x2x128_S_d0_1_2 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  main_v8
-- ==== Kernel.lean ====
abbrev S512x2x128 : Shape := ⟨3, ![512, 2, 128]⟩
abbrev S512x1 : Shape := ⟨2, ![512, 1]⟩
abbrev S512x1x128 : Shape := ⟨3, ![512, 1, 128]⟩
abbrev S512x128 : Shape := ⟨2, ![512, 128]⟩
abbrev S1024x128 : Shape := ⟨2, ![1024, 128]⟩
abbrev S1x512x1x1 : Shape := ⟨4, ![1, 512, 1, 1]⟩
abbrev S2x512x1x1 : Shape := ⟨4, ![2, 512, 1, 1]⟩
abbrev S1024x1 : Shape := ⟨2, ![1024, 1]⟩
abbrev S1x1 : Shape := ⟨2, ![1, 1]⟩
abbrev S256x128 : Shape := ⟨2, ![256, 128]⟩
abbrev S256x1 : Shape := ⟨2, ![256, 1]⟩
abbrev S256x1024 : Shape := ⟨2, ![256, 1024]⟩
abbrev S256 : Shape := ⟨1, ![256]⟩
abbrev S1024 : Shape := ⟨1, ![1024]⟩
abbrev S1x1024 : Shape := ⟨2, ![1, 1024]⟩
abbrev S1 : Shape := ⟨1, ![1]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S512x2x128, .f32⟩
  | .hbm, ⟨1, _⟩ => ⟨S512x1, .f32⟩
  | .hbm, ⟨2, _⟩ => ⟨S512x1x128, .f32⟩
  | .hbm, ⟨3, _⟩ => ⟨S512x128, .f32⟩
  | .hbm, ⟨4, _⟩ => ⟨S512x1x128, .f32⟩
  | .hbm, ⟨5, _⟩ => ⟨S512x128, .f32⟩
  | .hbm, ⟨6, _⟩ => ⟨S1024x128, .f32⟩
  | .hbm, ⟨7, _⟩ => ⟨S1x512x1x1, .f32⟩
  | .hbm, ⟨8, _⟩ => ⟨S2x512x1x1, .f32⟩
  | .hbm, ⟨9, _⟩ => ⟨S1024x1, .f32⟩
  | .hbm, ⟨10, _⟩ => ⟨S1x1, .f32⟩
  | .hbm, ⟨11, _⟩ => ⟨S_, .f32⟩
  | .local _ .vmem, ⟨0, _⟩ => ⟨S256x128, .f32⟩
  | .local _ .vmem, ⟨1, _⟩ => ⟨S256x128, .f32⟩
  | .local _ .vmem, ⟨2, _⟩ => ⟨S1024x128, .f32⟩
  | .local _ .vmem, ⟨3, _⟩ => ⟨S256x1, .f32⟩
  | .local _ .vmem, ⟨4, _⟩ => ⟨S256x1, .f32⟩
  | .local _ .vmem, ⟨5, _⟩ => ⟨S1024x1, .f32⟩
  | .local _ .vmem, ⟨6, _⟩ => ⟨S1x1, .f32⟩
  | .local _ .vmem, ⟨7, _⟩ => ⟨S1x1, .f32⟩
  | _, _ => ⟨S512x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v56 : BitVec 1 := Scalar.cmpi .eq arg0 c3_i32
  let v57 : BitVec 32 := Scalar.extui v56
  let c0_i32_20 : BitVec 32 := 0#32
  let v58 : BitVec 1 := Scalar.cmpi .ne v57 c0_i32_20
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S512x2x128_S512x1x128_0_0_0 : S512x2x128.Slices ![0, 0, 0] S512x1x128
  shapeCasts_S512x1x128_S512x128 : S512x1x128.ShapeCasts S512x128
  slices_S512x2x128_S512x1x128_0_1_0 : S512x2x128.Slices ![0, 1, 0] S512x1x128
  concatenates_S512x128_S512x128_S1024x128_d0 : Shape.Concatenates [S512x128, S512x128] S1024x128 0
  shapeCasts_S512x1_S1x512x1x1 : S512x1.ShapeCasts S1x512x1x1
  bcast_S1x512x1x1_S2x512x1x1_0_1_2_3 : S1x512x1x1.BroadcastsInDim S2x512x1x1 (![0, 1, 2, 3] : Fin 4 → Fin S2x512x1x1.rank)
  shapeCasts_S2x512x1x1_S1024x1 : S2x512x1x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  reduces_S256x128_S256 : S256x128.Reduces [1] S256
  shapeCasts_S256_S256x1 : S256.ShapeCasts S256x1
  reduces_S1024x128_S1024 : S1024x128.Reduces [1] S1024
  shapeCasts_S1024_S1024x1 : S1024.ShapeCasts S1024x1
  transposes_S1024x1_p1_0_S1x1024 : S1024x1.Transposes [1, 0] S1x1024
  broadcasts_S256x1_S256x1024 : S256x1.Broadcasts S256x1024
  broadcasts_S1x1024_S256x1024 : S1x1024.Broadcasts S256x1024
  inb_S256x1_S256x1_0_0 : ∀ a, (![0, 0] : Fin 2 → Nat) a + S256x1.size a ≤ S256x1.size a
  h_S256x1 : 0 < S256x1.numel
  inb_S1024x1_S1024x1_0_0 : ∀ a, (![0, 0] : Fin 2 → Nat) a + S1024x1.size a ≤ S1024x1.size a
  h_S1024x1 : 0 < S1024x1.numel
  iota_S256x1_d0_w32 : S256x1.Iotas .tc 32 [0]
  iota_S1x1024_d1_w32 : S1x1024.Iotas .tc 32 [1]
  reduces_S256x1024_S256 : S256x1024.Reduces [1] S256
  reduces_S256x1_S1 : S256x1.Reduces [0] S1
  shapeCasts_S1_S1x1 : S1.ShapeCasts S1x1
  shapeCasts_S1x1_S_ : S1x1.ShapeCasts S_
  dot_S256x128_S1024x128_S256x1024_1_1_0_0_n_n_wf : DotDims.WF S256x128 S1024x128 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S1024x128.size a
  hwx0_0 : ∀ i : grid0.Coords, EltTy.bits .f32 = 32 ∨ (Rect.block (s := S1024x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S1024x1.size a
  hwx0_2 : ∀ i : grid0.Coords, EltTy.bits .f32 = 32 ∨ (Rect.block (s := S1024x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S256x128_S1024x128_S256x1024_1_1_0_0_n_n : DotDims S256x128 S1024x128 S256x1024 where
  lhsContracting := [1]
  rhsContracting := [1]
  lhsNonContracting := [0]
  rhsNonContracting := [0]
  lhsBatch := []
  rhsBatch := []
  wf := dot_S256x128_S1024x128_S256x1024_1_1_0_0_n_n_wf

abbrev win0_0 : Pipeline.Window sig grid0 :=
  Pipeline.Window.ofSpec (Memref.whole main_v4) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S512x2x128 : Shape := ⟨3, ![512, 2, 128]⟩
abbrev S512x1 : Shape := ⟨2, ![512, 1]⟩
abbrev S512x1x128 : Shape := ⟨3, ![512, 1, 128]⟩
abbrev S512x128 : Shape := ⟨2, ![512, 128]⟩
abbrev S1024x128 : Shape := ⟨2, ![1024, 128]⟩
abbrev S1x512x1x1 : Shape := ⟨4, ![1, 512, 1, 1]⟩
abbrev S2x512x1x1 : Shape := ⟨4, ![2, 512, 1, 1]⟩
abbrev S1024x1 : Shape := ⟨2, ![1024, 1]⟩
abbrev S1024x1x1 : Shape := ⟨3, ![1024, 1, 1]⟩
abbrev S1x1024x1 : Shape := ⟨3, ![1, 1024, 1]⟩
abbrev S1024x1024x1 : Shape := ⟨3, ![1024, 1024, 1]⟩
abbrev S_ : Shape := ⟨0, ![]⟩
abbrev S1024x1024 : Shape := ⟨2, ![1024, 1024]⟩
abbrev S1024x1x128 : Shape := ⟨3, ![1024, 1, 128]⟩
abbrev S1x1024x128 : Shape := ⟨3, ![1, 1024, 128]⟩
abbrev S1024x1024x128 : Shape := ⟨3, ![1024, 1024, 128]⟩

abbrev nBuf : Space → Nat
  | .hbm => 55
  | .vmem => 0
  | .smem => 0
  | _ => 0

abbrev bufTy : (tb : Table) → Fin (tcTables nBuf tb) → BufTy
  | .hbm, ⟨0, _⟩ => ⟨S512x2x128, .f32⟩
  | .hbm, ⟨1, _⟩ => ⟨S512x1, .f32⟩
  | .hbm, ⟨2, _⟩ => ⟨S512x1x128, .f32⟩
  | .hbm, ⟨3, _⟩ => ⟨S512x128, .f32⟩
  | .hbm, ⟨4, _⟩ => ⟨S512x1x128, .f32⟩
  | .hbm, ⟨5, _⟩ => ⟨S512x128, .f32⟩
  | .hbm, ⟨6, _⟩ => ⟨S1024x128, .f32⟩
  | .hbm, ⟨7, _⟩ => ⟨S1x512x1x1, .f32⟩
  | .hbm, ⟨8, _⟩ => ⟨S2x512x1x1, .f32⟩
  | .hbm, ⟨9, _⟩ => ⟨S1024x1, .f32⟩
  | .hbm, ⟨10, _⟩ => ⟨S1024x1x1, .f32⟩
  | .hbm, ⟨11, _⟩ => ⟨S1x1024x1, .f32⟩
  | .hbm, ⟨12, _⟩ => ⟨S1024x1024x1, .f32⟩
  | .hbm, ⟨13, _⟩ => ⟨S1024x1024x1, .f32⟩
  | .hbm, ⟨14, _⟩ => ⟨S1024x1024x1, .f32⟩
  | .hbm, ⟨15, _⟩ => ⟨S1024x1024x1, .f32⟩
  | .hbm, ⟨16, _⟩ => ⟨S_, .f32⟩
  | .hbm, ⟨17, _⟩ => ⟨S1024x1024, .f32⟩
  | .hbm, ⟨18, _⟩ => ⟨S1024x1x128, .f32⟩
  | .hbm, ⟨19, _⟩ => ⟨S1x1024x128, .f32⟩
  | .hbm, ⟨20, _⟩ => ⟨S1024x1024x128, .f32⟩
  | .hbm, ⟨21, _⟩ => ⟨S1024x1024x128, .f32⟩
  | .hbm, ⟨22, _⟩ => ⟨S1024x1024x128, .f32⟩
  | .hbm, ⟨23, _⟩ => ⟨S1024x1024x128, .f32⟩
  | .hbm, ⟨24, _⟩ => ⟨S_, .f32⟩
  | .hbm, ⟨25, _⟩ => ⟨S1024x1024, .f32⟩
  | .hbm, ⟨26, _⟩ => ⟨S_, .i1⟩
  | .hbm, ⟨27, _⟩ => ⟨S1024x1024, .i1⟩
  | .hbm, ⟨28, _⟩ => ⟨S1024x1024, .i32⟩
  | .hbm, ⟨29, _⟩ => ⟨S_, .i32⟩
  | .hbm, ⟨30, _⟩ => ⟨S1024x1024, .i32⟩
  | .hbm, ⟨31, _⟩ => ⟨S1024x1024, .i32⟩
  | .hbm, ⟨32, _⟩ => ⟨S1024x1024, .i32⟩
  | .hbm, ⟨33, _⟩ => ⟨S1024x1024, .i1⟩
  | .hbm, ⟨34, _⟩ => ⟨S_, .i1⟩
  | .hbm, ⟨35, _⟩ => ⟨S1024x1024, .i1⟩
  | .hbm, ⟨36, _⟩ => ⟨S1024x1024, .i1⟩
  | .hbm, ⟨37, _⟩ => ⟨S_, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v23 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩

abbrev nD : Nat := 1
abbrev τ : Topo := Topo.v7x

variable {F : FTy → Type} [FloatOps F]

class Facts₀ : Prop where
  slices_S512x2x128_S512x1x128_0_0_0 : S512x2x128.Slices ![0, 0, 0] S512x1x128
  shapeCasts_S512x1x128_S512x128 : S512x1x128.ShapeCasts S512x128
  slices_S512x2x128_S512x1x128_0_1_0 : S512x2x128.Slices ![0, 1, 0] S512x1x128
  concatenates_S512x128_S512x128_S1024x128_d0 : Shape.Concatenates [S512x128, S512x128] S1024x128 0
  shapeCasts_S512x1_S1x512x1x1 : S512x1.ShapeCasts S1x512x1x1
  bcast_S1x512x1x1_S2x512x1x1_0_1_2_3 : S1x512x1x1.BroadcastsInDim S2x512x1x1 (![0, 1, 2, 3] : Fin 4 → Fin S2x512x1x1.rank)
  shapeCasts_S2x512x1x1_S1024x1 : S2x512x1x1.ShapeCasts S1024x1
  bcast_S1024x1_S1024x1x1_0_2 : S1024x1.BroadcastsInDim S1024x1x1 (![0, 2] : Fin 2 → Fin S1024x1x1.rank)
  bcast_S1024x1_S1x1024x1_1_2 : S1024x1.BroadcastsInDim S1x1024x1 (![1, 2] : Fin 2 → Fin S1x1024x1.rank)
  bcast_S1024x1x1_S1024x1024x1_0_1_2 : S1024x1x1.BroadcastsInDim S1024x1024x1 (![0, 1, 2] : Fin 3 → Fin S1024x1024x1.rank)
  bcast_S1x1024x1_S1024x1024x1_0_1_2 : S1x1024x1.BroadcastsInDim S1024x1024x1 (![0, 1, 2] : Fin 3 → Fin S1024x1024x1.rank)
  reducesTo_S1024x1024x1_S1024x1024_d2 : S1024x1024x1.ReducesTo [2] S1024x1024
  h_S_ : 0 < S_.numel
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  bcast_S_S1024x1024 : S_.BroadcastsInDim S1024x1024 (![] : Fin 0 → Fin S1024x1024.rank)
  reducesTo_S1024x1024_S_d0_1 : S1024x1024.ReducesTo [0, 1] S_

variable [Facts₀]

class Facts : Prop extends Facts₀ where

variable [Facts]
-- ==== Proof.K.Shared.lean ====
import proofs.«100146_j50757923504321_1_alg».proof.Proof.Gen.Kernel.Launch
import proofs.«100146_j50757923504321_1_alg».proof.Proof.Gen.Kernel.Skeleton
import proofs.«100146_j50757923504321_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
What the runs of the loss kernel share. The kernel is called at four grid points; at point `t` it is handed rows
`256 t … 256 t + 255` of the feature matrix and of the label column (windows 0 and 2), the whole feature matrix and
the whole label column (windows 1 and 3, fetched once), its `1 × 1` output block (window 4) and a `1 × 1`
scratch accumulator it keeps between points. Three control cases: the FIRST point resets the accumulator and adds the
tile's sum, the MIDDLE points add, the LAST point adds and stores the accumulator divided by the number of pairs.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eight host operations that build the
    stacked feature matrix and the tiled label column. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host prefix, the region, the host line after it: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not: an unfetched
    window's block index has not moved and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The reset branch's condition: the grid coordinate is 0. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The output branch's condition: the grid coordinate is 3. -/
abbrev condLast (i : grid0.Coords) : Prop := k0_cond2 i = 1#1
theorem hcondLast : ∀ t : Fin cfg0.N, condLast (grid0.coords t) ↔ t.val = 3 :=
  (by decide +kernel : ∀ t : Fin grid0.N, condLast (grid0.coords t) ↔ t.val = 3)

/-! ## Where the windows are idle -/

theorem liveAt_in : ∀ (w : Fin cfg0.W), w.val < 4 → ∀ i, cfg0.idle w i = false := by
  intro w hw i
  match w, hw with
  | ⟨0, _⟩, _ => rfl
  | ⟨1, _⟩, _ => rfl
  | ⟨2, _⟩, _ => rfl
  | ⟨3, _⟩, _ => rfl
/-- Away from the last point the output window is idle (nothing is stored into it) and not written back. -/
theorem idleAt_out : ∀ t : Fin cfg0.N, ¬condLast (grid0.coords t) → cfg0.idle 4 (grid0.coords t) = true := by decide +kernel
theorem noFlush_out : ∀ t : Fin cfg0.N, ¬condLast (grid0.coords t) → (cfg0.win 4).flush t = false := by decide +kernel
/-- At the last point it is live. -/
theorem liveAt_out : ∀ t : Fin cfg0.N, condLast (grid0.coords t) → cfg0.idle 4 (grid0.coords t) = false := by decide +kernel

/-! ## The staging memrefs and the scratch -/

abbrev VO : View sig .tc .vmem S1x1 .f32 := (Memref.whole cc0_stg4_0 : Memref sig .tc .vmem S1x1 .f32).view
abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S1x1 .f32 := Memref.whole cc0_scratch0
abbrev VS : View sig .tc .vmem S1x1 .f32 := scM.view

/-- The share each input window holds its array at: the feature matrix is read by windows 0 and 1 and the label column
    by windows 2 and 3, so each of a pair holds one half of its array (the output window holds its array outright). -/
def qShare (w : Fin cfg0.W) : PosShare TreeShare := if w.val % 2 = 0 then fullShare.left else fullShare.right

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frame

end
-- ==== Proof.K.Launch.lean ====
import proofs.«100146_j50757923504321_1_alg».proof.Proof.K.Shared

/-!
The launch of @main: eight host operations build the stacked feature matrix and the tiled label column, the loss kernel
runs once with five windows, and one host operation reshapes its `1 × 1` result to a scalar.

Two of the kernel's input windows read the feature matrix and two read the label column, so the windows' arrays are not
distinct. Each shared array's points-to is halved between its two windows at entry, and the host operation after the
kernel takes the result array out of the output window's component, which holds it outright.
-/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one: the feature matrix, the label column, the result. -/
theorem arrBufs_eq (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = iprop((((c.tc : Thread nD τ).loc main_v4) ↦{fullShare} V' main_v4) ∗ (((c.tc : Thread nD τ).loc main_v7) ↦{fullShare} V' main_v7)
          ∗ (((c.tc : Thread nD τ).loc main_v8) ↦{fullShare} V' main_v8)) := by
  unfold Pipeline.arrBufs
  exact bigSep_eq_bigSepL_of_eq [main_v4, main_v7, main_v8] (by decide) (by decide) _

/-- The windows' arrays, one by one, each at its window's share. -/
theorem arrays_eq5 (c : Dev nD) (dat : Dat τ (Elt F) Unit ℕ (UR sig nD τ) ℕ cfg0 c) (hq : ∀ w, dat.q w = qShare w)
    (G : (w : Fin cfg0.W) → Buf (Elt F) ((cfg0.win w).arr.view.loc (c.tc : Thread nD τ))) :
    (dat.arrays G : sProp 𝕄)
      = iprop((((c.tc : Thread nD τ).loc main_v4) ↦{fullShare.left} G 0) ∗ (((c.tc : Thread nD τ).loc main_v4) ↦{fullShare.right} G 1)
          ∗ (((c.tc : Thread nD τ).loc main_v7) ↦{fullShare.left} G 2) ∗ (((c.tc : Thread nD τ).loc main_v7) ↦{fullShare.right} G 3)
          ∗ (((c.tc : Thread nD τ).loc main_v8) ↦{fullShare} G 4)) := by
  have s0 : dat.share 0 = fullShare.left := by unfold Dat.share; rw [if_neg (by decide), hq]; rfl
  have s1 : dat.share 1 = fullShare.right := by unfold Dat.share; rw [if_neg (by decide), hq]; rfl
  have s2 : dat.share 2 = fullShare.left := by unfold Dat.share; rw [if_neg (by decide), hq]; rfl
  have s3 : dat.share 3 = fullShare.right := by unfold Dat.share; rw [if_neg (by decide), hq]; rfl
  have s4 : dat.share 4 = fullShare := by unfold Dat.share; rw [if_pos (by decide)]
  unfold Dat.arrays
  rw [bigSep_W0, (arr_whole0 0).set_eq_univ, (arr_whole0 2).set_eq_univ, (arr_whole0 4).set_eq_univ, s0, s1, s2, s3, s4]

/-- At entry each shared array's points-to is halved between its two windows; the result array goes to the output
    window whole. -/
theorem hsplit_shared (c : Dev nD) (dat : Dat τ (Elt F) Unit ℕ (UR sig nD τ) ℕ cfg0 c) (hq : ∀ w, dat.q w = qShare w)
    (hA : ∀ w, dat.A w = V m c (Pipeline.arrRef spec0 w)) :
    (Pipeline.arrBufs spec0 c (V m c) : sProp 𝕄) ⊢ dat.arrays (dat.arrAt · 0) := by
  have e : (dat.arrAt · 0) = fun w => V m c (Pipeline.arrRef spec0 w) := funext hA
  rw [e, arrBufs_eq, arrays_eq5 c dat hq]
  iintro ⟨H4, H7, H8⟩
  ihave H4' := (pointsTo_share (PosShare.mem_left_op_right fullShare)).1 $$ H4
  icases H4' with ⟨H4l, H4r⟩
  ihave H7' := (pointsTo_share (PosShare.mem_left_op_right fullShare)).1 $$ H7
  icases H7' with ⟨H7l, H7r⟩
  isplitl [H4l]; · iexact H4l
  isplitl [H4r]; · iexact H4r
  isplitl [H7l]; · iexact H7l
  isplitl [H7r]; · iexact H7r
  iexact H8

/-! ## The host operation after the kernel -/

/-- The core's buffer contents when the kernel returns: the result array at what the output window wrote back, every
    other buffer as the kernel found it. -/
def Wexit (c : Dev nD) (out : Buf (Elt F) ((c.tc : Thread nD τ).loc main_v8)) : Valuation τ sig (Elt F) :=
  Function.update (V0 m c) (Proc.devRef .tc main_v8) out

theorem Wexit_v8 (c : Dev nD) (out : Buf (Elt F) ((c.tc : Thread nD τ).loc main_v8)) :
    Wexit m c out (Proc.devRef .tc main_v8) = out := by
  unfold Wexit; exact Function.update_self ..

theorem Wexit_ne (c : Dev nD) (out : Buf (Elt F) ((c.tc : Thread nD τ).loc main_v8)) (b : Ref sig .tc) (hb : b ≠ main_v8) :
    Wexit m c out (Proc.devRef .tc b) = V m c b := by
  unfold Wexit; exact Function.update_of_ne (StableHlo.devRef_ne_of_ne hb) _ _

/-- The reshape writes the scalar result only. -/
theorem after1_ne (W : Valuation τ sig (Elt F)) (b : Ref sig .tc) (hb : b ≠ main_v9) :
    StableHlo.after hostOps1 W (Proc.devRef .tc b) = W (Proc.devRef .tc b) :=
  StableHlo.after_of_forall_not_mem _ _ fun op hop hw => by
    obtain rfl := List.mem_singleton.mp hop
    rw [StableHlo.reshape_writes] at hw
    exact StableHlo.devRef_ne_of_ne hb (Finset.mem_singleton.mp hw)

/-- A bypassing buffer other than the scalar result holds after the reshape what it held when the kernel was entered. -/
theorem Wafter_ne (c : Dev nD) (out : Buf (Elt F) ((c.tc : Thread nD τ).loc main_v8)) (b : Ref sig .tc) (h8 : b ≠ main_v8) (h9 : b ≠ main_v9) :
    StableHlo.after hostOps1 (Wexit m c out) (Proc.devRef .tc b) = V m c b := by
  rw [after1_ne _ b h9, Wexit_ne m c out b h8]

/-- The buffers the reshape touches: the result array and the scalar result. -/
abbrev tailS : Finset (DevRef τ sig) := {Proc.devRef .tc main_v8, Proc.devRef .tc main_v9}

/-- The two buffers the reshape touches, held at `W`. -/
theorem held_v8_v9 (c : Dev nD) (W : Valuation τ sig (Elt F)) :
    (StableHlo.held (c.tc : Thread nD τ) tailS W : sProp 𝕄)
      = iprop((((c.tc : Thread nD τ).loc main_v8) ↦{fullShare} W (Proc.devRef .tc main_v8))
          ∗ (((c.tc : Thread nD τ).loc main_v9) ↦{fullShare} W (Proc.devRef .tc main_v9))) := by
  unfold StableHlo.held
  rw [bigSep_insert (fun h => StableHlo.devRef_ne_of_ne (by decide : main_v8 ≠ main_v9) (Finset.mem_singleton.mp h)), bigSep_singleton]
  rfl

set_option backward.isDefEq.respectTransparency.types false in
/-- From the kernel's exit the reshape runs on the result array, which the output window holds outright, and on the
    scalar result, which bypassed the kernel; the input windows' halves and the other bypassing buffers are untouched. -/
theorem htail_shared (c : Dev nD) (dat : Dat τ (Elt F) Unit ℕ (UR sig nD τ) ℕ cfg0 c) (hq : ∀ w, dat.q w = qShare w) (Q' : PUnit → sProp 𝕄) :
    iprop((iprop(dat.arrays (dat.arrAt · cfg0.N)
            ∗ Pipeline.unscopedRest spec0 c (fun b => StableHlo.after hostOps1 (Wexit m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hsub : ∀ ops ∈ [hostOps1 (F := F)], ∀ op ∈ ops, op.bufs ⊆ tailS := by
    intro ops hops op hop
    obtain rfl := List.mem_singleton.mp hops
    obtain rfl := List.mem_singleton.mp hop
    exact Finset.Subset.refl _
  have hfresh : ∀ ops ∈ [hostOps1 (F := F)], ∀ op ∈ ops, op.fresh = ∅ := by
    intro ops hops op hop
    obtain rfl := List.mem_singleton.mp hops
    exact (List.forall_iff_forall_mem.mp hostOps1_fresh) op hop
  have hin : iprop((((c.tc : Thread nD τ).loc main_v8) ↦{fullShare} dat.arrAt 4 cfg0.N) ∗ (((c.tc : Thread nD τ).loc main_v9) ↦{fullShare} V m c main_v9))
      ⊢ (StableHlo.held (c.tc : Thread nD τ) tailS (Wexit m c (dat.arrAt 4 cfg0.N)) : sProp 𝕄) := by
    rw [held_v8_v9, Wexit_v8, Wexit_ne m c _ main_v9 (by decide)]
  have hout : (StableHlo.held (c.tc : Thread nD τ) tailS (StableHlo.after [hostOps1].flatten (Wexit m c (dat.arrAt 4 cfg0.N))) : sProp 𝕄)
      ⊢ iprop((((c.tc : Thread nD τ).loc main_v8) ↦{fullShare} dat.arrAt 4 cfg0.N)
          ∗ (((c.tc : Thread nD τ).loc main_v9) ↦{fullShare} StableHlo.after hostOps1 (Wexit m c (dat.arrAt 4 cfg0.N)) (Proc.devRef .tc main_v9))) := by
    rw [held_v8_v9, show [hostOps1 (F := F)].flatten = hostOps1 from rfl, after1_ne _ main_v8 (by decide), Wexit_v8]
  rw [arrays_eq5 c dat hq, unscopedRest0_eq, unscopedRest0_eq,
    Wafter_ne m c _ main_arg0 (by decide) (by decide), Wafter_ne m c _ main_arg1 (by decide) (by decide),
    Wafter_ne m c _ main_v0 (by decide) (by decide), Wafter_ne m c _ main_v1 (by decide) (by decide),
    Wafter_ne m c _ main_v2 (by decide) (by decide), Wafter_ne m c _ main_v3 (by decide) (by decide),
    Wafter_ne m c _ main_v5 (by decide) (by decide), Wafter_ne m c _ main_v6 (by decide) (by decide),
    show [StableHlo.seq (hostOps1 (F := F))] = [hostOps1].map StableHlo.seq ++ [] from rfl]
  iintro ⟨Hk, Hb, ⟨Ha0, Ha1, Ha2, Ha3, Ha4⟩, Hz0, Hz1, Hz2, Hz3, Hz4, Hz5, Hz6, Hz7, Hz8⟩
  ihave Hh := hin $$ [Ha4 Hz8]
  · isplitl [Ha4] <;> iassumption
  iapply (Pipeline.wp_seqs_then pcfgs defs₀ Variants.none c tailS [] [hostOps1] hsub hfresh (Wexit m c (dat.arrAt 4 cfg0.N))) $$ [Hb Hh]
  · isplitl [Hb] <;> iassumption
  iintro Hb
  rw [Pipeline.chain_nil, wp_pure]
  imodintro
  iapply Hk
  icases Hb with ⟨-, H⟩
  ihave H' := hout $$ H
  icases H' with ⟨H8, H9⟩
  isplitl [Ha0 Ha1 Ha2 Ha3 H8]
  · isplitl [Ha0]; · iexact Ha0
    isplitl [Ha1]; · iexact Ha1
    isplitl [Ha2]; · iexact Ha2
    isplitl [Ha3]; · iexact Ha3
    iexact H8
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  iexact H9

/-! ## The launch -/

/-- The host operations before the kernel do not write the program's arguments. -/
theorem launch_V_arg0 (c : Dev nD) : V m c main_arg0 = m ((c.tc : Thread nD τ).loc main_arg0) := by
  show StableHlo.after (List.flatten [hostOps0]) (fun b => m (c, b)) (Proc.devRef .tc main_arg0) = _
  rw [show List.flatten [hostOps0 (F := F)] = hostOps0 from rfl]
  after_results
theorem launch_V_arg1 (c : Dev nD) : V m c main_arg1 = m ((c.tc : Thread nD τ).loc main_arg1) := by
  show StableHlo.after (List.flatten [hostOps0]) (fun b => m (c, b)) (Proc.devRef .tc main_arg1) = _
  rw [show List.flatten [hostOps0 (F := F)] = hostOps0 from rfl]
  after_results

/-- THE RUN of @main for proof data that hold each shared array's halves: the scalar result is the reshape of what the
    output window wrote back, and the program's arguments are unchanged. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hq : ∀ c w, (dats 0 c).q w = qShare w)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∃ W : Valuation τ sig (Elt F), W (Proc.devRef .tc main_v8) = (dats 0 c).arrAt 4 cfg0.N
          ∧ r.2.mem ((c.tc : Thread nD τ).loc main_v9) = StableHlo.after hostOps1 W (Proc.devRef .tc main_v9))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () Gen.cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_shared m c (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after hostOps1 (Wexit m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_shared m c (dats 0 c) (hq c) Q')
    (QY := fun c s => ∀ b ∈ Pipeline.restRefs sig spec0, s.mem ((c.tc : Thread nD τ).loc b)
        = StableHlo.after hostOps1 (Wexit m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wexit m c ((dats 0 c).arrAt 4 cfg0.N)) (Proc.devRef .tc b)) s')
      isplitl [HU] <;> iassumption)
    (hQ := fun s h c =>
      ⟨⟨Wexit m c ((dats 0 c).arrAt 4 cfg0.N), Wexit_v8 m c _, (h c).2.2 main_v9 (Pipeline.mem_restRefs_of main_v9 rfl (by decide))⟩,
        ((h c).2.2 main_arg0 (Pipeline.mem_restRefs_of main_arg0 rfl (by decide))).trans
          ((Wafter_ne m c _ main_arg0 (by decide) (by decide)).trans (launch_V_arg0 m c)),
        ((h c).2.2 main_arg1 (Pipeline.mem_restRefs_of main_arg1 rfl (by decide))).trans
          ((Wafter_ne m c _ main_arg1 (by decide) (by decide)).trans (launch_V_arg1 m c))⟩)

end Cert.Kernel.Frame

end
-- ==== Proof.K.RunA.lean ====
import proofs.«100146_j50757923504321_1_alg».proof.Proof.K.Shared

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at the FIRST point: the accumulator is reset to zero, the tile's sum is added to it, nothing is stored
into the output block. What the accumulator ends with is found as the list of pieces the run's stores leave. -/

set_option maxHeartbeats 1000000 in
noncomputable def kernelRunA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Frame

end
-- ==== Proof.K.RunB.lean ====
import proofs.«100146_j50757923504321_1_alg».proof.Proof.K.RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at a MIDDLE point: the tile's sum is added to the accumulator the point before left (`xs`); nothing is
stored into the output block. -/

set_option maxHeartbeats 1000000 in
noncomputable def kernelRunB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.Kernel.Frame

end
-- ==== Proof.K.RunC.lean ====
import proofs.«100146_j50757923504321_1_alg».proof.Proof.K.RunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at the LAST point: the tile's sum is added to the accumulator the point before left (`xs`), and the
accumulator divided by the number of pairs is stored into the output block. -/

set_option maxHeartbeats 1000000 in
noncomputable def kernelRunC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Frame

end
-- ==== Proof.K.Data.lean ====
import proofs.«100146_j50757923504321_1_alg».proof.Proof.K.RunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The proof data of the pipeline: what the output block's buffer and the accumulator hold after each of the four
points, by recursion on the point — the first point's reset-and-add, the middle points' add over what the point before
left, the last point's add and the store of the quotient — the invariant that carries the accumulator between points,
and the body obligation at every point. -/

/-- What case A leaves in the output block's staging buffer: its pieces read back over junk (no piece: the window is idle there and nothing consults it). -/
def outA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) : Vec F S1x1 .f32 :=
  VO.read (Elt F) (VO.writes (Elt F) VO.junk (kernelRunA c i arg1 harg1 arg2 harg2 arg3 harg3 arg4 harg4 arg5 harg5 arg6 harg6 hc0 hc1 x0 x1 x2 x3).1)

/-- Case A's pieces for the accumulator cover it. -/
theorem scoverA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) (y : S1x1.Idx) :
    ∃ pc ∈ (kernelRunA c i arg1 harg1 arg2 harg2 arg3 harg3 arg4 harg4 arg5 harg5 arg6 harg6 hc0 hc1 x0 x1 x2 x3).2.1, y ∈ pc.1.set :=
  View.cover_of_tiledL (kernelRunA c i arg1 harg1 arg2 harg2 arg3 harg3 arg4 harg4 arg5 harg5 arg6 harg6 hc0 hc1 x0 x1 x2 x3).2.1 S1x1.size (by sl_kernel_rfl) y

/-- What case A leaves in the accumulator: its pieces read back over junk. -/
def soutA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) : Vec F S1x1 .f32 :=
  VS.read (Elt F) (VS.writes (Elt F) VS.junk (kernelRunA c i arg1 harg1 arg2 harg2 arg3 harg3 arg4 harg4 arg5 harg5 arg6 harg6 hc0 hc1 x0 x1 x2 x3).2.1)

/-- What case B leaves in the output block's staging buffer: its pieces read back over junk (no piece: the window is idle there and nothing consults it). -/
def outB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) : Vec F S1x1 .f32 :=
  VO.read (Elt F) (VO.writes (Elt F) VO.junk (kernelRunB c i arg1 harg1 arg2 harg2 arg3 harg3 arg4 harg4 arg5 harg5 arg6 harg6 hc0 hc1 x0 x1 x2 x3 xs).1)

/-- Case B's pieces for the accumulator cover it. -/
theorem scoverB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunB c i arg1 harg1 arg2 harg2 arg3 harg3 arg4 harg4 arg5 harg5 arg6 harg6 hc0 hc1 x0 x1 x2 x3 xs).2.1, y ∈ pc.1.set :=
  View.cover_of_tiledL (kernelRunB c i arg1 harg1 arg2 harg2 arg3 harg3 arg4 harg4 arg5 harg5 arg6 harg6 hc0 hc1 x0 x1 x2 x3 xs).2.1 S1x1.size (by sl_kernel_rfl) y

/-- What case B leaves in the accumulator: its pieces read back over junk. -/
def soutB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) : Vec F S1x1 .f32 :=
  VS.read (Elt F) (VS.writes (Elt F) VS.junk (kernelRunB c i arg1 harg1 arg2 harg2 arg3 harg3 arg4 harg4 arg5 harg5 arg6 harg6 hc0 hc1 x0 x1 x2 x3 xs).2.1)

/-- Case C's pieces for the output block cover it (one store of the whole block). -/
theorem coverC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunC c i arg1 harg1 arg2 harg2 arg3 harg3 arg4 harg4 arg5 harg5 arg6 harg6 hc0 hc1 x0 x1 x2 x3 xs).1, y ∈ pc.1.set :=
  View.cover_of_tiledL (kernelRunC c i arg1 harg1 arg2 harg2 arg3 harg3 arg4 harg4 arg5 harg5 arg6 harg6 hc0 hc1 x0 x1 x2 x3 xs).1 S1x1.size (by sl_kernel_rfl) y

/-- What case C leaves in the output block's staging buffer: its pieces read back over junk. -/
def outC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) : Vec F S1x1 .f32 :=
  VO.read (Elt F) (VO.writes (Elt F) VO.junk (kernelRunC c i arg1 harg1 arg2 harg2 arg3 harg3 arg4 harg4 arg5 harg5 arg6 harg6 hc0 hc1 x0 x1 x2 x3 xs).1)

/-- Case C's pieces for the accumulator cover it. -/
theorem scoverC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunC c i arg1 harg1 arg2 harg2 arg3 harg3 arg4 harg4 arg5 harg5 arg6 harg6 hc0 hc1 x0 x1 x2 x3 xs).2.1, y ∈ pc.1.set :=
  View.cover_of_tiledL (kernelRunC c i arg1 harg1 arg2 harg2 arg3 harg3 arg4 harg4 arg5 harg5 arg6 harg6 hc0 hc1 x0 x1 x2 x3 xs).2.1 S1x1.size (by sl_kernel_rfl) y

/-- What case C leaves in the accumulator: its pieces read back over junk. -/
def soutC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) : Vec F S1x1 .f32 :=
  VS.read (Elt F) (VS.writes (Elt F) VS.junk (kernelRunC c i arg1 harg1 arg2 harg2 arg3 harg3 arg4 harg4 arg5 harg5 arg6 harg6 hc0 hc1 x0 x1 x2 x3 xs).2.1)

/-! ## What the output block and the accumulator hold after each point -/

/-- After the body at position `n`: (the output block's staging buffer, the accumulator). -/
def outsAt (c : Dev nD) : (n : ℕ) → n < cfg0.N → Vec F S1x1 .f32 × Vec F S1x1 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr rfl) (fun h => by have := (hcondLast ⟨0, hn⟩).mp h; (try dsimp only at this); omega) (iblk m c 0 ⟨0, hn⟩) (iblk m c 1 ⟨0, hn⟩) (iblk m c 2 ⟨0, hn⟩) (iblk m c 3 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr rfl) (fun h => by have := (hcondLast ⟨0, hn⟩).mp h; (try dsimp only at this); omega) (iblk m c 0 ⟨0, hn⟩) (iblk m c 1 ⟨0, hn⟩) (iblk m c 2 ⟨0, hn⟩) (iblk m c 3 ⟨0, hn⟩))
  | n + 1, hn =>
    if h1 : n + 1 = 3 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- `outsAt` at the first point. -/
theorem outsAt_A (c : Dev nD) (t : Fin cfg0.N) (h0 : t.val = 0) (h1 : ¬t.val = 3) :
    outsAt m c t.val t.isLt = (outA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact absurd h0 (Nat.succ_ne_zero n)

/-- `outsAt` at a middle point: over what the point before left. -/
theorem outsAt_B (c : Dev nD) (t : Fin cfg0.N) (h0 : ¬t.val = 0) (h1 : ¬t.val = 3) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2,
      soutB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: over what the point before left. -/
theorem outsAt_C (c : Dev nD) (t : Fin cfg0.N) (h0 : ¬t.val = 0) (h1 : t.val = 3) :
    outsAt m c t.val t.isLt = (outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2,
      soutC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block, the output block's at
    `outsAt`'s first component; the invariant `PhiS`; nothing owed; each input window holding its half of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := qShare w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qShare w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's position says which case it is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val = 0
  · have h1 : ¬t.val = 3 := by omega
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [Dat.leavesExact_idle (dats m 0 c) 4 t (idleAt_out t (fun h => h1 ((hcondLast t).mp h))) (noFlush_out t (fun h => h1 ((hcondLast t).mp h)))]
    rw [outsAt_A m c t h0 h1]
    unfold soutA; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverA c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 3
    · rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt_out t ((hcondLast t).mpr h1)], after4]
      rw [outsAt_C m c t h0 h1]
      unfold outC soutC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt_out t (fun h => h1 ((hcondLast t).mp h))) (noFlush_out t (fun h => h1 ((hcondLast t).mp h)))]
      rw [outsAt_B m c t h0 h1]
      unfold soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 4 := N_0; omega)

end Cert.Kernel.Frame

end
-- ==== Proof.KI.Shared.lean ====
import proofs.«100146_j50757923504321_1_alg».proof.Proof.Gen.KernelIdeal.Launch
import proofs.«100146_j50757923504321_1_alg».proof.Proof.Gen.KernelIdeal.Skeleton
import proofs.«100146_j50757923504321_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
What the runs of the loss kernel share. The kernel is called at four grid points; at point `t` it is handed rows
`256 t … 256 t + 255` of the feature matrix and of the label column (windows 0 and 2), the whole feature matrix and
the whole label column (windows 1 and 3, fetched once), its `1 × 1` output block (window 4) and a `1 × 1`
scratch accumulator it keeps between points. Three control cases: the FIRST point resets the accumulator and adds the
tile's sum, the MIDDLE points add, the LAST point adds and stores the accumulator divided by the number of pairs.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the eight host operations that build the
    stacked feature matrix and the tiled label column. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host prefix, the region, the host line after it: it reduces to the region continued by that line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not: an unfetched
    window's block index has not moved and the body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The reset branch's condition: the grid coordinate is 0. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)

/-- The output branch's condition: the grid coordinate is 3. -/
abbrev condLast (i : grid0.Coords) : Prop := k0_cond2 i = 1#1
theorem hcondLast : ∀ t : Fin cfg0.N, condLast (grid0.coords t) ↔ t.val = 3 :=
  (by decide +kernel : ∀ t : Fin grid0.N, condLast (grid0.coords t) ↔ t.val = 3)

/-! ## Where the windows are idle -/

theorem liveAt_in : ∀ (w : Fin cfg0.W), w.val < 4 → ∀ i, cfg0.idle w i = false := by
  intro w hw i
  match w, hw with
  | ⟨0, _⟩, _ => rfl
  | ⟨1, _⟩, _ => rfl
  | ⟨2, _⟩, _ => rfl
  | ⟨3, _⟩, _ => rfl
/-- Away from the last point the output window is idle (nothing is stored into it) and not written back. -/
theorem idleAt_out : ∀ t : Fin cfg0.N, ¬condLast (grid0.coords t) → cfg0.idle 4 (grid0.coords t) = true := by decide +kernel
theorem noFlush_out : ∀ t : Fin cfg0.N, ¬condLast (grid0.coords t) → (cfg0.win 4).flush t = false := by decide +kernel
/-- At the last point it is live. -/
theorem liveAt_out : ∀ t : Fin cfg0.N, condLast (grid0.coords t) → cfg0.idle 4 (grid0.coords t) = false := by decide +kernel

/-! ## The staging memrefs and the scratch -/

abbrev VO : View sig .tc .vmem S1x1 .f32 := (Memref.whole cc0_stg4_0 : Memref sig .tc .vmem S1x1 .f32).view
abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S1x1 .f32 := Memref.whole cc0_scratch0
abbrev VS : View sig .tc .vmem S1x1 .f32 := scM.view

/-- The share each input window holds its array at: the feature matrix is read by windows 0 and 1 and the label column
    by windows 2 and 3, so each of a pair holds one half of its array (the output window holds its array outright). -/
def qShare (w : Fin cfg0.W) : PosShare TreeShare := if w.val % 2 = 0 then fullShare.left else fullShare.right

/-- The class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frame

end
-- ==== Proof.KI.Launch.lean ====
import proofs.«100146_j50757923504321_1_alg».proof.Proof.KI.Shared

/-!
The launch of @main: eight host operations build the stacked feature matrix and the tiled label column, the loss kernel
runs once with five windows, and one host operation reshapes its `1 × 1` result to a scalar.

Two of the kernel's input windows read the feature matrix and two read the label column, so the windows' arrays are not
distinct. Each shared array's points-to is halved between its two windows at entry, and the host operation after the
kernel takes the result array out of the output window's component, which holds it outright.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one: the feature matrix, the label column, the result. -/
theorem arrBufs_eq (c : Dev nD) (V' : (b : Ref sig .tc) → Buf (Elt F) ((c.tc : Thread nD τ).loc b)) :
    (Pipeline.arrBufs (Ix := Unit) (Name := ℕ) (U := UR sig nD τ) (Lvl := ℕ) spec0 c V' : sProp 𝕄)
      = iprop((((c.tc : Thread nD τ).loc main_v4) ↦{fullShare} V' main_v4) ∗ (((c.tc : Thread nD τ).loc main_v7) ↦{fullShare} V' main_v7)
          ∗ (((c.tc : Thread nD τ).loc main_v8) ↦{fullShare} V' main_v8)) := by
  unfold Pipeline.arrBufs
  exact bigSep_eq_bigSepL_of_eq [main_v4, main_v7, main_v8] (by decide) (by decide) _

/-- The windows' arrays, one by one, each at its window's share. -/
theorem arrays_eq5 (c : Dev nD) (dat : Dat τ (Elt F) Unit ℕ (UR sig nD τ) ℕ cfg0 c) (hq : ∀ w, dat.q w = qShare w)
    (G : (w : Fin cfg0.W) → Buf (Elt F) ((cfg0.win w).arr.view.loc (c.tc : Thread nD τ))) :
    (dat.arrays G : sProp 𝕄)
      = iprop((((c.tc : Thread nD τ).loc main_v4) ↦{fullShare.left} G 0) ∗ (((c.tc : Thread nD τ).loc main_v4) ↦{fullShare.right} G 1)
          ∗ (((c.tc : Thread nD τ).loc main_v7) ↦{fullShare.left} G 2) ∗ (((c.tc : Thread nD τ).loc main_v7) ↦{fullShare.right} G 3)
          ∗ (((c.tc : Thread nD τ).loc main_v8) ↦{fullShare} G 4)) := by
  have s0 : dat.share 0 = fullShare.left := by unfold Dat.share; rw [if_neg (by decide), hq]; rfl
  have s1 : dat.share 1 = fullShare.right := by unfold Dat.share; rw [if_neg (by decide), hq]; rfl
  have s2 : dat.share 2 = fullShare.left := by unfold Dat.share; rw [if_neg (by decide), hq]; rfl
  have s3 : dat.share 3 = fullShare.right := by unfold Dat.share; rw [if_neg (by decide), hq]; rfl
  have s4 : dat.share 4 = fullShare := by unfold Dat.share; rw [if_pos (by decide)]
  unfold Dat.arrays
  rw [bigSep_W0, (arr_whole0 0).set_eq_univ, (arr_whole0 2).set_eq_univ, (arr_whole0 4).set_eq_univ, s0, s1, s2, s3, s4]

/-- At entry each shared array's points-to is halved between its two windows; the result array goes to the output
    window whole. -/
theorem hsplit_shared (c : Dev nD) (dat : Dat τ (Elt F) Unit ℕ (UR sig nD τ) ℕ cfg0 c) (hq : ∀ w, dat.q w = qShare w)
    (hA : ∀ w, dat.A w = V m c (Pipeline.arrRef spec0 w)) :
    (Pipeline.arrBufs spec0 c (V m c) : sProp 𝕄) ⊢ dat.arrays (dat.arrAt · 0) := by
  have e : (dat.arrAt · 0) = fun w => V m c (Pipeline.arrRef spec0 w) := funext hA
  rw [e, arrBufs_eq, arrays_eq5 c dat hq]
  iintro ⟨H4, H7, H8⟩
  ihave H4' := (pointsTo_share (PosShare.mem_left_op_right fullShare)).1 $$ H4
  icases H4' with ⟨H4l, H4r⟩
  ihave H7' := (pointsTo_share (PosShare.mem_left_op_right fullShare)).1 $$ H7
  icases H7' with ⟨H7l, H7r⟩
  isplitl [H4l]; · iexact H4l
  isplitl [H4r]; · iexact H4r
  isplitl [H7l]; · iexact H7l
  isplitl [H7r]; · iexact H7r
  iexact H8

/-! ## The host operation after the kernel -/

/-- The core's buffer contents when the kernel returns: the result array at what the output window wrote back, every
    other buffer as the kernel found it. -/
def Wexit (c : Dev nD) (out : Buf (Elt F) ((c.tc : Thread nD τ).loc main_v8)) : Valuation τ sig (Elt F) :=
  Function.update (V0 m c) (Proc.devRef .tc main_v8) out

theorem Wexit_v8 (c : Dev nD) (out : Buf (Elt F) ((c.tc : Thread nD τ).loc main_v8)) :
    Wexit m c out (Proc.devRef .tc main_v8) = out := by
  unfold Wexit; exact Function.update_self ..

theorem Wexit_ne (c : Dev nD) (out : Buf (Elt F) ((c.tc : Thread nD τ).loc main_v8)) (b : Ref sig .tc) (hb : b ≠ main_v8) :
    Wexit m c out (Proc.devRef .tc b) = V m c b := by
  unfold Wexit; exact Function.update_of_ne (StableHlo.devRef_ne_of_ne hb) _ _

/-- The reshape writes the scalar result only. -/
theorem after1_ne (W : Valuation τ sig (Elt F)) (b : Ref sig .tc) (hb : b ≠ main_v9) :
    StableHlo.after hostOps1 W (Proc.devRef .tc b) = W (Proc.devRef .tc b) :=
  StableHlo.after_of_forall_not_mem _ _ fun op hop hw => by
    obtain rfl := List.mem_singleton.mp hop
    rw [StableHlo.reshape_writes] at hw
    exact StableHlo.devRef_ne_of_ne hb (Finset.mem_singleton.mp hw)

/-- A bypassing buffer other than the scalar result holds after the reshape what it held when the kernel was entered. -/
theorem Wafter_ne (c : Dev nD) (out : Buf (Elt F) ((c.tc : Thread nD τ).loc main_v8)) (b : Ref sig .tc) (h8 : b ≠ main_v8) (h9 : b ≠ main_v9) :
    StableHlo.after hostOps1 (Wexit m c out) (Proc.devRef .tc b) = V m c b := by
  rw [after1_ne _ b h9, Wexit_ne m c out b h8]

/-- The buffers the reshape touches: the result array and the scalar result. -/
abbrev tailS : Finset (DevRef τ sig) := {Proc.devRef .tc main_v8, Proc.devRef .tc main_v9}

/-- The two buffers the reshape touches, held at `W`. -/
theorem held_v8_v9 (c : Dev nD) (W : Valuation τ sig (Elt F)) :
    (StableHlo.held (c.tc : Thread nD τ) tailS W : sProp 𝕄)
      = iprop((((c.tc : Thread nD τ).loc main_v8) ↦{fullShare} W (Proc.devRef .tc main_v8))
          ∗ (((c.tc : Thread nD τ).loc main_v9) ↦{fullShare} W (Proc.devRef .tc main_v9))) := by
  unfold StableHlo.held
  rw [bigSep_insert (fun h => StableHlo.devRef_ne_of_ne (by decide : main_v8 ≠ main_v9) (Finset.mem_singleton.mp h)), bigSep_singleton]
  rfl

set_option backward.isDefEq.respectTransparency.types false in
/-- From the kernel's exit the reshape runs on the result array, which the output window holds outright, and on the
    scalar result, which bypassed the kernel; the input windows' halves and the other bypassing buffers are untouched. -/
theorem htail_shared (c : Dev nD) (dat : Dat τ (Elt F) Unit ℕ (UR sig nD τ) ℕ cfg0 c) (hq : ∀ w, dat.q w = qShare w) (Q' : PUnit → sProp 𝕄) :
    iprop((iprop(dat.arrays (dat.arrAt · cfg0.N)
            ∗ Pipeline.unscopedRest spec0 c (fun b => StableHlo.after hostOps1 (Wexit m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hsub : ∀ ops ∈ [hostOps1 (F := F)], ∀ op ∈ ops, op.bufs ⊆ tailS := by
    intro ops hops op hop
    obtain rfl := List.mem_singleton.mp hops
    obtain rfl := List.mem_singleton.mp hop
    exact Finset.Subset.refl _
  have hfresh : ∀ ops ∈ [hostOps1 (F := F)], ∀ op ∈ ops, op.fresh = ∅ := by
    intro ops hops op hop
    obtain rfl := List.mem_singleton.mp hops
    exact (List.forall_iff_forall_mem.mp hostOps1_fresh) op hop
  have hin : iprop((((c.tc : Thread nD τ).loc main_v8) ↦{fullShare} dat.arrAt 4 cfg0.N) ∗ (((c.tc : Thread nD τ).loc main_v9) ↦{fullShare} V m c main_v9))
      ⊢ (StableHlo.held (c.tc : Thread nD τ) tailS (Wexit m c (dat.arrAt 4 cfg0.N)) : sProp 𝕄) := by
    rw [held_v8_v9, Wexit_v8, Wexit_ne m c _ main_v9 (by decide)]
  have hout : (StableHlo.held (c.tc : Thread nD τ) tailS (StableHlo.after [hostOps1].flatten (Wexit m c (dat.arrAt 4 cfg0.N))) : sProp 𝕄)
      ⊢ iprop((((c.tc : Thread nD τ).loc main_v8) ↦{fullShare} dat.arrAt 4 cfg0.N)
          ∗ (((c.tc : Thread nD τ).loc main_v9) ↦{fullShare} StableHlo.after hostOps1 (Wexit m c (dat.arrAt 4 cfg0.N)) (Proc.devRef .tc main_v9))) := by
    rw [held_v8_v9, show [hostOps1 (F := F)].flatten = hostOps1 from rfl, after1_ne _ main_v8 (by decide), Wexit_v8]
  rw [arrays_eq5 c dat hq, unscopedRest0_eq, unscopedRest0_eq,
    Wafter_ne m c _ main_arg0 (by decide) (by decide), Wafter_ne m c _ main_arg1 (by decide) (by decide),
    Wafter_ne m c _ main_v0 (by decide) (by decide), Wafter_ne m c _ main_v1 (by decide) (by decide),
    Wafter_ne m c _ main_v2 (by decide) (by decide), Wafter_ne m c _ main_v3 (by decide) (by decide),
    Wafter_ne m c _ main_v5 (by decide) (by decide), Wafter_ne m c _ main_v6 (by decide) (by decide),
    show [StableHlo.seq (hostOps1 (F := F))] = [hostOps1].map StableHlo.seq ++ [] from rfl]
  iintro ⟨Hk, Hb, ⟨Ha0, Ha1, Ha2, Ha3, Ha4⟩, Hz0, Hz1, Hz2, Hz3, Hz4, Hz5, Hz6, Hz7, Hz8⟩
  ihave Hh := hin $$ [Ha4 Hz8]
  · isplitl [Ha4] <;> iassumption
  iapply (Pipeline.wp_seqs_then pcfgs defs₀ Variants.none c tailS [] [hostOps1] hsub hfresh (Wexit m c (dat.arrAt 4 cfg0.N))) $$ [Hb Hh]
  · isplitl [Hb] <;> iassumption
  iintro Hb
  rw [Pipeline.chain_nil, wp_pure]
  imodintro
  iapply Hk
  icases Hb with ⟨-, H⟩
  ihave H' := hout $$ H
  icases H' with ⟨H8, H9⟩
  isplitl [Ha0 Ha1 Ha2 Ha3 H8]
  · isplitl [Ha0]; · iexact Ha0
    isplitl [Ha1]; · iexact Ha1
    isplitl [Ha2]; · iexact Ha2
    isplitl [Ha3]; · iexact Ha3
    iexact H8
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  iexact H9

/-! ## The launch -/

/-- The host operations before the kernel do not write the program's arguments. -/
theorem launch_V_arg0 (c : Dev nD) : V m c main_arg0 = m ((c.tc : Thread nD τ).loc main_arg0) := by
  show StableHlo.after (List.flatten [hostOps0]) (fun b => m (c, b)) (Proc.devRef .tc main_arg0) = _
  rw [show List.flatten [hostOps0 (F := F)] = hostOps0 from rfl]
  after_results
theorem launch_V_arg1 (c : Dev nD) : V m c main_arg1 = m ((c.tc : Thread nD τ).loc main_arg1) := by
  show StableHlo.after (List.flatten [hostOps0]) (fun b => m (c, b)) (Proc.devRef .tc main_arg1) = _
  rw [show List.flatten [hostOps0 (F := F)] = hostOps0 from rfl]
  after_results

/-- THE RUN of @main for proof data that hold each shared array's halves: the scalar result is the reshape of what the
    output window wrote back, and the program's arguments are unchanged. -/
theorem run_shared (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (howed : ∀ c t, (dats 0 c).owed t = 0)
    (hq : ∀ c w, (dats 0 c).q w = qShare w)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      (∃ W : Valuation τ sig (Elt F), W (Proc.devRef .tc main_v8) = (dats 0 c).arrAt 4 cfg0.N
          ∧ r.2.mem ((c.tc : Thread nD τ).loc main_v9) = StableHlo.after hostOps1 W (Proc.devRef .tc main_v9))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () Gen.cellOf_inj 0
    winFacts₀0 (Pipeline.OwnSemFacts.none spec0) (Pipeline.PreFacts.none _) emb₁ defs₀ Variants.none m ρ main
    (fun _ => Pipeline.chain [StableHlo.seq hostOps1]) hbody
    block_pos0 arr_whole0 stage_whole0 howed
    (G := fun _ => iprop(emp)) (u₀ := initOf (Pipeline.cells cfgs Gen.cellOf_inj) (Pipeline.launchToks cfgs Gen.cellOf_inj))
    (hu₀ := by
      iintro Hu; imodintro
      isplitl [Hu]; · iapply (show (ownU _ : sProp 𝕄) ⊢ BI.own (emb₁ (initOf (Pipeline.cells cfgs Gen.cellOf_inj) (Pipeline.launchToks cfgs Gen.cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit_shared m c (dats 0 c) (hq c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c
      (fun b => StableHlo.after hostOps1 (Wexit m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => htail_shared m c (dats 0 c) (hq c) Q')
    (QY := fun c s => ∀ b ∈ Pipeline.restRefs sig spec0, s.mem ((c.tc : Thread nD τ).loc b)
        = StableHlo.after hostOps1 (Wexit m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wexit m c ((dats 0 c).arrAt 4 cfg0.N)) (Proc.devRef .tc b)) s')
      isplitl [HU] <;> iassumption)
    (hQ := fun s h c =>
      ⟨⟨Wexit m c ((dats 0 c).arrAt 4 cfg0.N), Wexit_v8 m c _, (h c).2.2 main_v9 (Pipeline.mem_restRefs_of main_v9 rfl (by decide))⟩,
        ((h c).2.2 main_arg0 (Pipeline.mem_restRefs_of main_arg0 rfl (by decide))).trans
          ((Wafter_ne m c _ main_arg0 (by decide) (by decide)).trans (launch_V_arg0 m c)),
        ((h c).2.2 main_arg1 (Pipeline.mem_restRefs_of main_arg1 rfl (by decide))).trans
          ((Wafter_ne m c _ main_arg1 (by decide) (by decide)).trans (launch_V_arg1 m c))⟩)

end Cert.KernelIdeal.Frame

end
-- ==== Proof.KI.RunA.lean ====
import proofs.«100146_j50757923504321_1_alg».proof.Proof.KI.Shared

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at the FIRST point: the accumulator is reset to zero, the tile's sum is added to it, nothing is stored
into the output block. What the accumulator ends with is found as the list of pieces the run's stores leave. -/

set_option maxHeartbeats 1000000 in
noncomputable def kernelRunA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Frame

end
-- ==== Proof.KI.RunB.lean ====
import proofs.«100146_j50757923504321_1_alg».proof.Proof.KI.RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at a MIDDLE point: the tile's sum is added to the accumulator the point before left (`xs`); nothing is
stored into the output block. -/

set_option maxHeartbeats 1000000 in
noncomputable def kernelRunB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) :
    Σ' (L4 : List (View.Piece (Elt F) S1x1 .f32)), { LS : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨[], ?_, fun xi4 E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

end Cert.KernelIdeal.Frame

end
-- ==== Proof.KI.RunC.lean ====
import proofs.«100146_j50757923504321_1_alg».proof.Proof.KI.RunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The body at the LAST point: the tile's sum is added to the accumulator the point before left (`xs`), and the
accumulator divided by the number of pairs is stored into the output block. -/

set_option maxHeartbeats 1000000 in
noncomputable def kernelRunC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc0__loss_kernel i arg1 harg1 arg2 harg2 arg3 harg3 arg4 harg4 arg5 harg5 arg6 harg6) K } := by
  refine ⟨?_, ?_, fun E K => ?run⟩
  case run =>
    simp only [cc0__loss_kernel_eq_skeleton]; unfold cc0__loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2; obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Frame

end
-- ==== Proof.KI.Data.lean ====
import proofs.«100146_j50757923504321_1_alg».proof.Proof.KI.RunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The proof data of the pipeline: what the output block's buffer and the accumulator hold after each of the four
points, by recursion on the point — the first point's reset-and-add, the middle points' add over what the point before
left, the last point's add and the store of the quotient — the invariant that carries the accumulator between points,
and the body obligation at every point. -/

/-- What case A leaves in the output block's staging buffer: its pieces read back over junk (no piece: the window is idle there and nothing consults it). -/
def outA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) : Vec F S1x1 .f32 :=
  VO.read (Elt F) (VO.writes (Elt F) VO.junk (kernelRunA c i arg1 harg1 arg2 harg2 arg3 harg3 arg4 harg4 arg5 harg5 arg6 harg6 hc0 hc1 x0 x1 x2 x3).1)

/-- Case A's pieces for the accumulator cover it. -/
theorem scoverA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) (y : S1x1.Idx) :
    ∃ pc ∈ (kernelRunA c i arg1 harg1 arg2 harg2 arg3 harg3 arg4 harg4 arg5 harg5 arg6 harg6 hc0 hc1 x0 x1 x2 x3).2.1, y ∈ pc.1.set :=
  View.cover_of_tiledL (kernelRunA c i arg1 harg1 arg2 harg2 arg3 harg3 arg4 harg4 arg5 harg5 arg6 harg6 hc0 hc1 x0 x1 x2 x3).2.1 S1x1.size (by sl_kernel_rfl) y

/-- What case A leaves in the accumulator: its pieces read back over junk. -/
def soutA (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) : Vec F S1x1 .f32 :=
  VS.read (Elt F) (VS.writes (Elt F) VS.junk (kernelRunA c i arg1 harg1 arg2 harg2 arg3 harg3 arg4 harg4 arg5 harg5 arg6 harg6 hc0 hc1 x0 x1 x2 x3).2.1)

/-- What case B leaves in the output block's staging buffer: its pieces read back over junk (no piece: the window is idle there and nothing consults it). -/
def outB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) : Vec F S1x1 .f32 :=
  VO.read (Elt F) (VO.writes (Elt F) VO.junk (kernelRunB c i arg1 harg1 arg2 harg2 arg3 harg3 arg4 harg4 arg5 harg5 arg6 harg6 hc0 hc1 x0 x1 x2 x3 xs).1)

/-- Case B's pieces for the accumulator cover it. -/
theorem scoverB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunB c i arg1 harg1 arg2 harg2 arg3 harg3 arg4 harg4 arg5 harg5 arg6 harg6 hc0 hc1 x0 x1 x2 x3 xs).2.1, y ∈ pc.1.set :=
  View.cover_of_tiledL (kernelRunB c i arg1 harg1 arg2 harg2 arg3 harg3 arg4 harg4 arg5 harg5 arg6 harg6 hc0 hc1 x0 x1 x2 x3 xs).2.1 S1x1.size (by sl_kernel_rfl) y

/-- What case B leaves in the accumulator: its pieces read back over junk. -/
def soutB (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) : Vec F S1x1 .f32 :=
  VS.read (Elt F) (VS.writes (Elt F) VS.junk (kernelRunB c i arg1 harg1 arg2 harg2 arg3 harg3 arg4 harg4 arg5 harg5 arg6 harg6 hc0 hc1 x0 x1 x2 x3 xs).2.1)

/-- Case C's pieces for the output block cover it (one store of the whole block). -/
theorem coverC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunC c i arg1 harg1 arg2 harg2 arg3 harg3 arg4 harg4 arg5 harg5 arg6 harg6 hc0 hc1 x0 x1 x2 x3 xs).1, y ∈ pc.1.set :=
  View.cover_of_tiledL (kernelRunC c i arg1 harg1 arg2 harg2 arg3 harg3 arg4 harg4 arg5 harg5 arg6 harg6 hc0 hc1 x0 x1 x2 x3 xs).1 S1x1.size (by sl_kernel_rfl) y

/-- What case C leaves in the output block's staging buffer: its pieces read back over junk. -/
def outC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) : Vec F S1x1 .f32 :=
  VO.read (Elt F) (VO.writes (Elt F) VO.junk (kernelRunC c i arg1 harg1 arg2 harg2 arg3 harg3 arg4 harg4 arg5 harg5 arg6 harg6 hc0 hc1 x0 x1 x2 x3 xs).1)

/-- Case C's pieces for the accumulator cover it. -/
theorem scoverC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) (y : S1x1.Idx) :
    ∃ pc ∈ (kernelRunC c i arg1 harg1 arg2 harg2 arg3 harg3 arg4 harg4 arg5 harg5 arg6 harg6 hc0 hc1 x0 x1 x2 x3 xs).2.1, y ∈ pc.1.set :=
  View.cover_of_tiledL (kernelRunC c i arg1 harg1 arg2 harg2 arg3 harg3 arg4 harg4 arg5 harg5 arg6 harg6 hc0 hc1 x0 x1 x2 x3 xs).2.1 S1x1.size (by sl_kernel_rfl) y

/-- What case C leaves in the accumulator: its pieces read back over junk. -/
def soutC (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) : Vec F S1x1 .f32 :=
  VS.read (Elt F) (VS.writes (Elt F) VS.junk (kernelRunC c i arg1 harg1 arg2 harg2 arg3 harg3 arg4 harg4 arg5 harg5 arg6 harg6 hc0 hc1 x0 x1 x2 x3 xs).2.1)

/-! ## What the output block and the accumulator hold after each point -/

/-- After the body at position `n`: (the output block's staging buffer, the accumulator). -/
def outsAt (c : Dev nD) : (n : ℕ) → n < cfg0.N → Vec F S1x1 .f32 × Vec F S1x1 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr rfl) (fun h => by have := (hcondLast ⟨0, hn⟩).mp h; (try dsimp only at this); omega) (iblk m c 0 ⟨0, hn⟩) (iblk m c 1 ⟨0, hn⟩) (iblk m c 2 ⟨0, hn⟩) (iblk m c 3 ⟨0, hn⟩),
              soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr rfl) (fun h => by have := (hcondLast ⟨0, hn⟩).mp h; (try dsimp only at this); omega) (iblk m c 0 ⟨0, hn⟩) (iblk m c 1 ⟨0, hn⟩) (iblk m c 2 ⟨0, hn⟩) (iblk m c 3 ⟨0, hn⟩))
  | n + 1, hn =>
    if h1 : n + 1 = 3 then
      (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)
    else
      (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2,
       soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => by have := (hcondFirst ⟨n + 1, hn⟩).mp h; (try dsimp only at this); omega) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (outsAt c n (Nat.lt_of_succ_lt hn)).2)

/-- `outsAt` at the first point. -/
theorem outsAt_A (c : Dev nD) (t : Fin cfg0.N) (h0 : t.val = 0) (h1 : ¬t.val = 3) :
    outsAt m c t.val t.isLt = (outA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t),
      soutA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t)) := by
  obtain ⟨n, hn⟩ := t
  cases n with
  | zero => exact rfl
  | succ n => exact absurd h0 (Nat.succ_ne_zero n)

/-- `outsAt` at a middle point: over what the point before left. -/
theorem outsAt_B (c : Dev nD) (t : Fin cfg0.N) (h0 : ¬t.val = 0) (h1 : ¬t.val = 3) :
    outsAt m c t.val t.isLt = (outB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2,
      soutB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_neg h1).trans rfl

/-- `outsAt` at the last point: over what the point before left. -/
theorem outsAt_C (c : Dev nD) (t : Fin cfg0.N) (h0 : ¬t.val = 0) (h1 : t.val = 3) :
    outsAt m c t.val t.isLt = (outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2,
      soutC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (outsAt m c (t.val - 1) (Nat.lt_of_le_of_lt (Nat.sub_le _ _) t.isLt)).2) := by
  obtain ⟨n, hn⟩ := t
  cases n with
  | zero => exact absurd rfl h0
  | succ n => exact (dif_pos h1).trans rfl

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

/-- The arrays as the region finds them; after the body each input's buffer at its block, the output block's at
    `outsAt`'s first component; the invariant `PhiS`; nothing owed; each input window holding its half of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := qShare w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qShare w := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

theorem liveAt0 : ∀ t : Fin cfg0.N, cfg0.idle 0 (grid0.coords t) = false := fun _ => rfl
theorem liveAt1 : ∀ t : Fin cfg0.N, cfg0.idle 1 (grid0.coords t) = false := fun _ => rfl
theorem liveAt2 : ∀ t : Fin cfg0.N, cfg0.idle 2 (grid0.coords t) = false := fun _ => rfl
theorem liveAt3 : ∀ t : Fin cfg0.N, cfg0.idle 3 (grid0.coords t) = false := fun _ => rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point's position says which case it is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 4 := lt_of_lt_of_eq t.isLt (show cfg0.N = 4 from N_0)
  by_cases h0 : t.val = 0
  · have h1 : ¬t.val = 3 := by omega
    rw [show (dats m 0 c).leavesExact 0 t = owns (c : Thread nD τ) (ms0 t) fullShare ((dats m 0 c).after 0 t) from by
      unfold Dat.leavesExact; rw [liveAt0 t], after0]
    rw [show (dats m 0 c).leavesExact 1 t = owns (c : Thread nD τ) (ms1 t) fullShare ((dats m 0 c).after 1 t) from by
      unfold Dat.leavesExact; rw [liveAt1 t], after1]
    rw [show (dats m 0 c).leavesExact 2 t = owns (c : Thread nD τ) (ms2 t) fullShare ((dats m 0 c).after 2 t) from by
      unfold Dat.leavesExact; rw [liveAt2 t], after2]
    rw [show (dats m 0 c).leavesExact 3 t = owns (c : Thread nD τ) (ms3 t) fullShare ((dats m 0 c).after 3 t) from by
      unfold Dat.leavesExact; rw [liveAt3 t], after3]
    rw [Dat.leavesExact_idle (dats m 0 c) 4 t (idleAt_out t (fun h => h1 ((hcondLast t).mp h))) (noFlush_out t (fun h => h1 ((hcondLast t).mp h)))]
    rw [outsAt_A m c t h0 h1]
    unfold soutA; (try dsimp only)
    rw [PhiS_castSucc m c t, PhiS_zero m c _ _ h0, PhiA_eq]
    iintro ⟨⟨HS, Hg⟩, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverA c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 3
    · rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [show (dats m 0 c).leavesExact 4 t = owns (c : Thread nD τ) (ms4 t) fullShare ((dats m 0 c).after 4 t) from by
        unfold Dat.leavesExact; rw [liveAt_out t ((hcondLast t).mpr h1)], after4]
      rw [outsAt_C m c t h0 h1]
      unfold outC soutC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [liveAt0 t], after0]
      rw [show (dats m 0 c).leavesExact 1 t = owns (c : Thread nD τ) (ms1 t) fullShare ((dats m 0 c).after 1 t) from by
        unfold Dat.leavesExact; rw [liveAt1 t], after1]
      rw [show (dats m 0 c).leavesExact 2 t = owns (c : Thread nD τ) (ms2 t) fullShare ((dats m 0 c).after 2 t) from by
        unfold Dat.leavesExact; rw [liveAt2 t], after2]
      rw [show (dats m 0 c).leavesExact 3 t = owns (c : Thread nD τ) (ms3 t) fullShare ((dats m 0 c).after 3 t) from by
        unfold Dat.leavesExact; rw [liveAt3 t], after3]
      rw [Dat.leavesExact_idle (dats m 0 c) 4 t (idleAt_out t (fun h => h1 ((hcondLast t).mp h))) (noFlush_out t (fun h => h1 ((hcondLast t).mp h)))]
      rw [outsAt_B m c t h0 h1]
      unfold soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 4 := N_0; omega)

end Cert.KernelIdeal.Frame

end
-- ==== Proof.KI.Value.lean ====
import proofs.«100146_j50757923504321_1_alg».proof.Proof.KI.Data
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the pieces found by the runs ARE: at every point the accumulator ends at one tile's update of what it held
(of the zero block at the first point), and at the last point the output block ends at the accumulator divided by
the number of pairs. So after the four points the result array holds the quotient of the four-tile chain. -/

theorem hz : (![0, 0] : Fin 2 → Nat) = fun _ => 0 := funext fun a => by fin_cases a <;> rfl

/-- One tile's update of the accumulator `acc`: the tile's masked squared errors, summed, added to it. -/
abbrev step (i : grid0.Coords) (x0 : Vec F S256x128 .f32) (x1 : Vec F S1024x128 .f32) (x2 : Vec F S256x1 .f32) (x3 : Vec F S1024x1 .f32) (acc : Vec F S1x1 .f32) : Vec F S1x1 .f32 :=
  k0_pay1 (k0_pay4 x2 x3) (k0_pay5 i) (k0_pay6 i x0 x1) (Scalar.ofBits .f32 0x40000000#32) acc

/-- A middle point leaves the accumulator at the tile's update of what the point before left. -/
theorem soutB_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : ¬condLast i)
    (x0 : Vec F S256x128 .f32) (x1 : Vec F S1024x128 .f32) (x2 : Vec F S256x1 .f32) (x3 : Vec F S1024x1 .f32) (xs : Vec F S1x1 .f32) :
    soutB c i arg1 harg1 arg2 harg2 arg3 harg3 arg4 harg4 arg5 harg5 arg6 harg6 hc0 hc1 x0 x1 x2 x3 xs = step i x0 x1 x2 x3 xs := by
  unfold soutB
  rw [View.read_writes_eq_canon _ _ _ (scoverB c i arg1 harg1 arg2 harg2 arg3 harg3 arg4 harg4 arg5 harg5 arg6 harg6 hc0 hc1 x0 x1 x2 x3 xs)]
  unfold kernelRunB
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x128) hz, View.ld_unit_zero (S := S1024x128) hz, View.ld_unit_zero (S := S256x1) hz, View.ld_unit_zero (S := S1024x1) hz, View.ld_unit_zero (S := S1x1) hz, View.readCov_unit_zero (S := S1x1) _ hz]
  try rfl

/-- The last point leaves the accumulator at the same update, -/
theorem soutC_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) :
    soutC c i arg1 harg1 arg2 harg2 arg3 harg3 arg4 harg4 arg5 harg5 arg6 harg6 hc0 hc1 x0 x1 x2 x3 xs = step i x0 x1 x2 x3 xs := by
  unfold soutC
  rw [View.read_writes_eq_canon _ _ _ (scoverC c i arg1 harg1 arg2 harg2 arg3 harg3 arg4 harg4 arg5 harg5 arg6 harg6 hc0 hc1 x0 x1 x2 x3 xs)]
  unfold kernelRunC
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x128) hz, View.ld_unit_zero (S := S1024x128) hz, View.ld_unit_zero (S := S256x1) hz, View.ld_unit_zero (S := S1024x1) hz, View.ld_unit_zero (S := S1x1) hz, View.readCov_unit_zero (S := S1x1) _ hz]
  try rfl

/-- and the output block at that accumulator divided by the number of pairs. -/
theorem outC_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : ¬condFirst i) (hc1 : condLast i)
    (x0 : Vec F S256x128 .f32) (x1 : Vec F S1024x128 .f32) (x2 : Vec F S256x1 .f32) (x3 : Vec F S1024x1 .f32) (xs : Vec F S1x1 .f32) :
    outC c i arg1 harg1 arg2 harg2 arg3 harg3 arg4 harg4 arg5 harg5 arg6 harg6 hc0 hc1 x0 x1 x2 x3 xs = k0_pay2 (step i x0 x1 x2 x3 xs) := by
  unfold outC
  rw [View.read_writes_eq_canon _ _ _ (coverC c i arg1 harg1 arg2 harg2 arg3 harg3 arg4 harg4 arg5 harg5 arg6 harg6 hc0 hc1 x0 x1 x2 x3 xs)]
  unfold kernelRunC
  dsimp only
  sl_unfold_words
  rw [View.canon_unit_zero hz]
  simp only [View.readAt_eq_ld, harg1.read_unread, harg2.read_unread, harg3.read_unread, harg4.read_unread, harg5.read_unread, harg6.read_unread,
    View.ld_unit_zero (S := S256x128) hz, View.ld_unit_zero (S := S1024x128) hz, View.ld_unit_zero (S := S256x1) hz, View.ld_unit_zero (S := S1024x1) hz, View.ld_unit_zero (S := S1x1) hz, View.readCov_unit_zero (S := S1x1) _ hz]
  try rfl

/-- The first point resets the accumulator to the zero block and leaves the tile's update of that. -/
theorem soutA_eq (c : Dev nD) (i : grid0.Coords) (arg1 : Memref sig .tc .vmem S256x128 .f32) (harg1 : arg1.IsWhole) (arg2 : Memref sig .tc .vmem S1024x128 .f32) (harg2 : arg2.IsWhole) (arg3 : Memref sig .tc .vmem S256x1 .f32) (harg3 : arg3.IsWhole) (arg4 : Memref sig .tc .vmem S1024x1 .f32) (harg4 : arg4.IsWhole) (arg5 : Memref sig .tc .vmem S1x1 .f32) (harg5 : arg5.IsWhole) (arg6 : Memref sig .tc .vmem S1x1 .f32) (harg6 : arg6.IsWhole) (hc0 : condFirst i) (hc1 : ¬condLast i)
    (x0 : Vec F S256x128 .f32) (x1 : Vec F S1024x128 .f32) (x2 : Vec F S256x1 .f32) (x3 : Vec F S1024x1 .f32) :
    soutA c i arg1 harg1 arg2 harg2 arg3 harg3 arg4 harg4 arg5 harg5 arg6 harg6 hc0 hc1 x0 x1 x2 x3 = step i x0 x1 x2 x3 (k0_pay3 (F := F)) := by
  unfold soutA
  rw [View.read_writes_eq_canon _ _ _ (scoverA c i arg1 harg1 arg2 harg2 arg3 harg3 arg4 harg4 arg5 harg5 arg6 harg6 hc0 hc1 x0 x1 x2 x3)]
  unfold kernelRunA
  dsimp only
  sl_unfold_words
  first
    | rw [View.canon_cons_unit_zero (S := S1x1) hz, View.readCov_unit_zero (S := S1x1) _ hz]
    | rw [View.canon_unit_zero hz]
  simp only [View.readAt_eq_ld, harg1.read_unread, harg2.read_unread, harg3.read_unread, harg4.read_unread, harg5.read_unread, harg6.read_unread,
    View.ld_unit_zero (S := S256x128) hz, View.ld_unit_zero (S := S1024x128) hz, View.ld_unit_zero (S := S256x1) hz, View.ld_unit_zero (S := S1024x1) hz, View.ld_unit_zero (S := S1x1) hz, View.readCov_unit_zero (S := S1x1) _ hz]

/-! ## The accumulator's chain -/

/-- The accumulator after point `n`: the first tile's update of the zero block, then each tile's update in turn. -/
def acc (c : Dev nD) : (n : ℕ) → n < cfg0.N → Vec F S1x1 .f32
  | 0, h => step (grid0.coords ⟨0, h⟩) (iblk m c 0 ⟨0, h⟩) (iblk m c 1 ⟨0, h⟩) (iblk m c 2 ⟨0, h⟩) (iblk m c 3 ⟨0, h⟩) (k0_pay3 (F := F))
  | n + 1, h => step (grid0.coords ⟨n + 1, h⟩) (iblk m c 0 ⟨n + 1, h⟩) (iblk m c 1 ⟨n + 1, h⟩) (iblk m c 2 ⟨n + 1, h⟩) (iblk m c 3 ⟨n + 1, h⟩) (acc c n (Nat.lt_of_succ_lt h))

/-- What the accumulator holds after point `n` is the chain — by induction on the point. -/
theorem outsAt_snd (c : Dev nD) : ∀ (n : ℕ) (h : n < cfg0.N), (outsAt m c n h).2 = acc m c n h
  | 0, h => by
    rw [outsAt_A m c ⟨0, h⟩ rfl (by show ¬(0 : ℕ) = 3; decide)]
    dsimp only
    rw [soutA_eq]
    rfl
  | n + 1, h => by
    by_cases h3 : n + 1 = 3
    · rw [outsAt_C m c ⟨n + 1, h⟩ (Nat.succ_ne_zero n) h3]
      dsimp only
      rw [soutC_eq]
      show step _ _ _ _ _ (outsAt m c n _).2 = step _ _ _ _ _ (acc m c n _)
      rw [outsAt_snd c n]
    · rw [outsAt_B m c ⟨n + 1, h⟩ (Nat.succ_ne_zero n) h3]
      dsimp only
      rw [soutB_eq]
      show step _ _ _ _ _ (outsAt m c n _).2 = step _ _ _ _ _ (acc m c n _)
      rw [outsAt_snd c n]

theorem lt3 : 3 < cfg0.N := by rw [show cfg0.N = 4 from N_0]; decide

/-- The result: the accumulator after the last point divided by the number of pairs, as contents of the `1 × 1` result array. -/
abbrev result (c : Dev nD) : Buf (Elt F) ((c : Thread nD τ).loc main_v8) := k0_pay2 (acc m c 3 lt3)

/-- The output block after the last point is the result. -/
theorem outsAt_last (c : Dev nD) : (outsAt m c 3 lt3).1 = result m c := by
  rw [outsAt_C m c ⟨3, lt3⟩ (by show ¬(3 : ℕ) = 0; decide) rfl]
  dsimp only
  rw [outC_eq]
  show k0_pay2 (step _ _ _ _ _ (outsAt m c 2 _).2) = k0_pay2 (step _ _ _ _ _ (acc m c 2 _))
  rw [outsAt_snd m c 2]

/-- The one write-back, at the last point, writes it: block (0, 0) of the `1 × 1` array is the array. -/
theorem flushed_eq (c : Dev nD) (t : Fin cfg0.N) (hf : (cfg0.win 4).flush t = true) :
    (dats m 0 c).flushed 4 t = ((cfg0.win 4).blk t).view.read (Elt F) (result m c) := by
  have hN : cfg0.N = 4 := N_0
  have h3 : t.val = 3 := by have := (flush0_4 t).mp hf; have := t.isLt; omega
  obtain rfl : t = t0_3 := Fin.ext h3
  show (cfg0.win 4).cut (grid0.coords t0_3) ((dats m 0 c).after 4 t0_3) = _
  rw [after4]
  show (cfg0.win 4).cut (grid0.coords t0_3) (outsAt m c 3 lt3).1 = _
  rw [outsAt_last]
  have hz' : (fun a => win0_4.index t0_3 a * main_v8.ty.shape.size a) = fun _ => 0 := funext fun a => by fin_cases a <;> decide
  exact (Memref.read_access_unit_zero (Elt F) main_v8 hz' (fun a => by rw [congrFun hz' a]; simp) (result m c)).symm

/-- So the result array ends holding the result (the last point's block covers it). -/
theorem final_o (c : Dev nD) : (dats m 0 c).arrAt 4 cfg0.N = result m c :=
  (dats m 0 c).arrAt_eq_of_cover 4 (result m c) (flushed_eq m c) fun i =>
    ⟨t0_3, (flush0_4 t0_3).mpr rfl, by
      show i ∈ ((View.whole main_v8).slice (win0_4.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_3 0 * win0_4.size 0 ≤ (i 0 : Nat) ∧ (i 0 : Nat) < win0_4.index t0_3 0 * win0_4.size 0 + win0_4.xsize (grid0.coords t0_3) 0
                  rw [show win0_4.index t0_3 0 * win0_4.size 0 = 0 from by decide +kernel, show win0_4.xsize (grid0.coords t0_3) 0 = 1 from by decide +kernel]; omega
      | ⟨1, _⟩ => show win0_4.index t0_3 1 * win0_4.size 1 ≤ (i 1 : Nat) ∧ (i 1 : Nat) < win0_4.index t0_3 1 * win0_4.size 1 + win0_4.xsize (grid0.coords t0_3) 1
                  rw [show win0_4.index t0_3 1 * win0_4.size 1 = 0 from by decide +kernel, show win0_4.xsize (grid0.coords t0_3) 1 = 1 from by decide +kernel]; omega⟩

end Cert.KernelIdeal.Frame

end
-- ==== Proof.Spec.lean ====
import Idealize.ShloMosaic.PureOps.Ideal
import Mathlib.Data.EReal.Basic
import Mathlib.Algebra.BigOperators.Fin

/-!
The loss both programs compute, as a function of the stacked feature matrix `f` (1024 rows of 128 numbers) and the
tiled label column `ℓ` (1024 numbers), on the extended reals.

For a pair of rows `i < j` the term is `(√(d²(i,j)) / 2 − |ℓ i − ℓ j|)²`; for `i ≥ j` it is `0`; the loss is the sum of
all terms divided by the number of pairs `1024 · 1023 / 2 = 523776`.

The reference takes the squared distance as `Σₖ (f i k − f j k)²` and sums over all pairs at once. The kernel takes it
as `(Σₖ (f i k)² + Σₖ (f j k)²) − 2 · Σₖ f i k · f j k` and sums tile by tile: rows `256 t … 256 t + 255` at grid point
`t`, added to an accumulator that starts at `0`. On finite entries the two squared distances are one real number
(expand the square and distribute the sum: that needs the entries finite), and the tiles' sums add up to the sum over
all rows (addition on the extended reals is commutative and associative).
-/

noncomputable section

namespace Cert.Spec

open Idealize.ShloMosaic

/-- The literal `2.0` both programs divide the distance by (and the kernel doubles the cross term with). -/
abbrev two : EReal := Ideal.ofBits .f32 0x40000000#32
/-- The literal `523776.0`, the number of pairs. -/
abbrev npairs : EReal := Ideal.ofBits .f32 0x48FFC000#32

/-- `|ℓ i − ℓ j|`. -/
def ldiff (ℓ : Fin 1024 → EReal) (i j : Fin 1024) : EReal := max (ℓ i - ℓ j) (-(ℓ i - ℓ j))

/-- One pair's squared error from its squared distance and its label difference. -/
def term (d2 ldv : EReal) : EReal := (Ideal.div (Ideal.sqrt d2) two - ldv) * (Ideal.div (Ideal.sqrt d2) two - ldv)

/-- The squared distance of rows `i`, `j`: the sum of the squared differences. -/
def d2ref (f : Fin 1024 → Fin 128 → EReal) (i j : Fin 1024) : EReal := ∑ k, (f i k - f j k) * (f i k - f j k)

/-- The same by the two squared norms and the inner product. -/
def d2ker (f : Fin 1024 → Fin 128 → EReal) (i j : Fin 1024) : EReal :=
  ((∑ k, f i k * f i k) + ∑ k, f j k * f j k) - two * ∑ k, f i k * f j k

/-- The pair's contribution: its term strictly above the diagonal, `0` elsewhere. -/
def masked (d2 : Fin 1024 → Fin 1024 → EReal) (ℓ : Fin 1024 → EReal) (i j : Fin 1024) : EReal :=
  if i < j then term (d2 i j) (ldiff ℓ i j) else 0

/-- The reference's loss: all pairs at once. -/
def lossRef (f : Fin 1024 → Fin 128 → EReal) (ℓ : Fin 1024 → EReal) : EReal :=
  Ideal.div (∑ i, ∑ j, masked (d2ref f) ℓ i j) npairs

/-- Row `r` of tile `t`. -/
def row (t : Fin 4) (r : Fin 256) : Fin 1024 := ⟨256 * t.val + r.val, by omega⟩

/-- The sum of one tile's rows. -/
def tileSum (d2 : Fin 1024 → Fin 1024 → EReal) (ℓ : Fin 1024 → EReal) (t : Fin 4) : EReal :=
  ∑ r : Fin 256, ∑ j : Fin 1024, masked d2 ℓ (row t r) j

/-- The kernel's loss: the accumulator after the four tiles, divided by the number of pairs. -/
def lossKer (f : Fin 1024 → Fin 128 → EReal) (ℓ : Fin 1024 → EReal) : EReal :=
  Ideal.div ((((0 + tileSum (d2ker f) ℓ 0) + tileSum (d2ker f) ℓ 1) + tileSum (d2ker f) ℓ 2) + tileSum (d2ker f) ℓ 3) npairs

end Cert.Spec

end
-- ==== Proof.RefValue.lean ====
import proofs.«100146_j50757923504321_1_alg».proof.Proof.Gen.ReferenceIdeal.Run
import proofs.«100146_j50757923504321_1_alg».proof.Proof.Gen.ReferenceIdeal.Read
import proofs.«100146_j50757923504321_1_alg».proof.Proof.Spec
import Idealize.ShloMosaic.Lib.ValueIdx
import Idealize.ShloMosaic.Lib.Pipeline.Value
import Idealize.ShloMosaic.Lib.StableHlo.Predicate
import Idealize.ShloMosaic.PureOps.Ideal.Laws

/-!
The value of the reference program, read element by element.

The reference stacks the two views of the features into a matrix `f` of 1024 rows of 128 numbers and tiles the labels
into a column `ℓ` of 1024 numbers. Every entry of `f` and of `ℓ` is an entry of the argument it was built from, so
finite arguments give finite `f` and `ℓ`. From `f` and `ℓ` on, the program's result is the loss `Cert.Spec.lossRef f ℓ`:
the squared distance of rows `i`, `j` is the sum over `k` of `(f i k − f j k)²`; the mask is `1` exactly at `i < j`;
the term there is `(√d² / 2 − |ℓ i − ℓ j|)²` and `0` elsewhere; the result is the sum of all terms over the number of
pairs.
-/

noncomputable section

namespace Cert.ReferenceIdeal.RefValue

open Cert.ReferenceIdeal Cert.ReferenceIdeal.Gen Idealize.ShloMosaic Idealize.ShloMosaic.ValueIdx

/-! ## Every entry of the stacked matrix and of the tiled column is an entry of the argument -/

/-- An entry of the stacked feature matrix is an entry of the feature argument: rows below 512 come from the first view,
    the others from the second. -/
theorem feat_entry (x0 : (⟨S512x2x128, .f32⟩ : BufTy).Contents (Elt Ideal)) (j : S1024x128.Idx) :
    ∃ j', Read.val_main_v4 (F := Ideal) x0 j = x0 j' := by
  by_cases h : (j 0).val < 512
  · refine ⟨Read.idx_main_v0 (Read.idx_main_v1 (ix2 ⟨(j 0).val, h⟩ ⟨(j 1).val, idx2_lt1 j⟩)), ?_⟩
    unfold Read.val_main_v4
    rw [concatenate_pair_apply_left (0 : Fin 2) (Read.val_main_v1 (F := Ideal) x0) (Read.val_main_v3 (F := Ideal) x0)
      concatenates_S512x128_S512x128_S1024x128_d0 j rfl (ix2 ⟨(j 0).val, h⟩ ⟨(j 1).val, idx2_lt1 j⟩)
      (fun b => match b with | ⟨0, _⟩ => rfl | ⟨1, _⟩ => rfl)]
    rw [Read.val_main_v1_apply, Read.val_main_v0_apply]
  · have h0 : (j 0).val < 1024 := idx2_lt0 j
    refine ⟨Read.idx_main_v2 (Read.idx_main_v3 (ix2 ⟨(j 0).val - 512, by omega⟩ ⟨(j 1).val, idx2_lt1 j⟩)), ?_⟩
    unfold Read.val_main_v4
    rw [concatenate_pair_apply_right (0 : Fin 2) (Read.val_main_v1 (F := Ideal) x0) (Read.val_main_v3 (F := Ideal) x0)
      concatenates_S512x128_S512x128_S1024x128_d0 j rfl rfl (ix2 ⟨(j 0).val - 512, by omega⟩ ⟨(j 1).val, idx2_lt1 j⟩)
      (fun b => match b with | ⟨0, _⟩ => fun hb => absurd rfl hb | ⟨1, _⟩ => fun _ => rfl)
      (by show (j 0).val - 512 + 512 = (j 0).val; omega)]
    rw [Read.val_main_v3_apply, Read.val_main_v2_apply]

/-- An entry of the tiled label column is an entry of the label argument. -/
theorem lab_entry (x1 : (⟨S512x1, .f32⟩ : BufTy).Contents (Elt Ideal)) (j : S1024x1.Idx) :
    ∃ j', Read.val_main_v7 (F := Ideal) x1 j = x1 j' :=
  ⟨_, by rw [Read.val_main_v7_apply, Read.val_main_v6_apply, Read.val_main_v5_apply]⟩

/-- Finite features stack into a finite matrix. -/
theorem feat_real (x0 : (⟨S512x2x128, .f32⟩ : BufTy).Contents (Elt Ideal)) (h : ∀ j, ∃ r : ℝ, x0 j = (r : EReal)) :
    ∀ j, ∃ r : ℝ, Read.val_main_v4 (F := Ideal) x0 j = (r : EReal) := fun j => by
  obtain ⟨j', e⟩ := feat_entry x0 j
  rw [e]; exact h j'

/-- Finite labels tile into a finite column. -/
theorem lab_real (x1 : (⟨S512x1, .f32⟩ : BufTy).Contents (Elt Ideal)) (h : ∀ j, ∃ r : ℝ, x1 j = (r : EReal)) :
    ∀ j, ∃ r : ℝ, Read.val_main_v7 (F := Ideal) x1 j = (r : EReal) := fun j => by
  obtain ⟨j', e⟩ := lab_entry x1 j
  rw [e]; exact h j'

/-! ## The mask: `1` strictly above the diagonal -/

/-- The mask at row `i`, column `j`: the row number is compared with the column number as signed 32-bit words; both are
    below 1024, so the words compare as the numbers do, and the bit is `1` exactly when `i < j`. -/
theorem mask_apply (i j : Fin 1024) :
    Read.val_main_v23 (F := Ideal) (ix2 i j) = if i < j then 1#1 else 0#1 := by
  rw [Read.val_main_v23_apply, Read.val_main_call0_v4_apply, Read.val_main_call0_v2_apply, Read.val_main_call0_v0_apply,
    Read.val_main_call0_v1_apply, Read.val_main_call0_c_apply, Read.val_main_call0_v3_apply, Read.val_main_call0_v5_apply,
    Read.val_main_call0_c_0_apply, Read.val_main_v22_apply, Read.val_main_c_apply]
  show Scalar.select (IntOp.cmpi .sge (IntOp.addi (BitVec.ofNat 32 i.val) 0#32) (BitVec.ofNat 32 j.val)) 0#1 1#1 = _
  have hi : i.val < 1024 := i.isLt
  have hj : j.val < 1024 := j.isLt
  have ha : (IntOp.addi (BitVec.ofNat 32 i.val) 0#32).toNat = i.val := by
    unfold IntOp.addi; rw [BitVec.add_zero, BitVec.toNat_ofNat]; omega
  have hb : (BitVec.ofNat 32 j.val).toNat = j.val := by rw [BitVec.toNat_ofNat]; omega
  have key := StableHlo.Predicate.sge_iff_toNat (a := IntOp.addi (BitVec.ofNat 32 i.val) 0#32) (b := BitVec.ofNat 32 j.val)
    (by omega) (by omega)
  by_cases hlt : i < j
  · have hv : i.val < j.val := hlt
    have hz : IntOp.cmpi .sge (IntOp.addi (BitVec.ofNat 32 i.val) 0#32) (BitVec.ofNat 32 j.val) = 0#1 :=
      eq_zero_of_ne_one (fun h => by have := key.mp h; omega)
    rw [if_pos hlt, hz, select_zero]
  · have hv : ¬ i.val < j.val := hlt
    rw [if_neg hlt, key.mpr (by omega), select_one]

/-! ## The squared distance and the label difference -/

/-- The squared distance of rows `i`, `j` as the program takes it: both rows broadcast against each other, subtracted,
    squared, and summed over the 128 columns from `0`. -/
theorem d2_apply (x0 : (⟨S512x2x128, .f32⟩ : BufTy).Contents (Elt Ideal)) (i j : Fin 1024) :
    Read.val_main_v21 (F := Ideal) x0 (ix2 i j)
      = Cert.Spec.d2ref (fun i k => Read.val_main_v4 (F := Ideal) x0 (ix2 i k)) i j := by
  rw [Read.val_main_v21_apply, Read.val_main_cst_0_apply, Ideal.ofBits_def, Ideal.ofBits_zero_f32, zero_add]
  unfold Cert.Spec.d2ref
  refine Finset.sum_congr rfl fun k _ => ?_
  rw [Read.val_main_v20_apply, Ideal.mulf_def, Read.val_main_v19_apply, Ideal.subf_def, Read.val_main_v17_apply,
    Read.val_main_v15_apply, Read.val_main_v18_apply, Read.val_main_v16_apply]
  have e1 : Read.idx_main_v15 (Read.idx_main_v17 (Read.idx_main_v21 (ix2 i j) k)) = ix2 i k := by
    funext a; match a with | ⟨0, _⟩ => rfl | ⟨1, _⟩ => rfl
  have e2 : Read.idx_main_v16 (Read.idx_main_v18 (Read.idx_main_v21 (ix2 i j) k)) = ix2 j k := by
    funext a; match a with | ⟨0, _⟩ => rfl | ⟨1, _⟩ => rfl
  rw [e1, e2]

/-- The label difference of rows `i`, `j` as the program takes it: the absolute value of the difference, summed over
    the one label column from `0`. -/
theorem ldiff_apply (x1 : (⟨S512x1, .f32⟩ : BufTy).Contents (Elt Ideal)) (i j : Fin 1024) :
    Read.val_main_v14 (F := Ideal) x1 (ix2 i j)
      = Cert.Spec.ldiff (fun i => Read.val_main_v7 (F := Ideal) x1 (ix2 i (0 : Fin 1))) i j := by
  rw [Read.val_main_v14_apply, Read.val_main_cst_apply, Ideal.ofBits_def, Ideal.ofBits_zero_f32, zero_add, Fin.sum_univ_one,
    Read.val_main_v13_apply, Read.val_main_v12_apply, Read.val_main_v10_apply, Read.val_main_v8_apply,
    Read.val_main_v11_apply, Read.val_main_v9_apply]
  have e1 : Read.idx_main_v8 (Read.idx_main_v10 (Read.idx_main_v14 (ix2 i j) 0)) = ix2 i (0 : Fin 1) := by
    funext a; match a with | ⟨0, _⟩ => rfl | ⟨1, _⟩ => rfl
  have e2 : Read.idx_main_v9 (Read.idx_main_v11 (Read.idx_main_v14 (ix2 i j) 0)) = ix2 j (0 : Fin 1) := by
    funext a; match a with | ⟨0, _⟩ => rfl | ⟨1, _⟩ => rfl
  rw [e1, e2]
  rfl

/-! ## One pair's term, and the loss -/

/-- The masked squared error at `(i, j)`: above the diagonal both selects take the computed branch and the term is
    `(√d² / 2 − |ℓ i − ℓ j|)²`; elsewhere the outer select takes the zero. -/
theorem term_apply (x0 : (⟨S512x2x128, .f32⟩ : BufTy).Contents (Elt Ideal)) (x1 : (⟨S512x1, .f32⟩ : BufTy).Contents (Elt Ideal))
    (i j : Fin 1024) :
    Read.val_main_v30 (F := Ideal) x0 x1 (ix2 i j)
      = Cert.Spec.masked (Cert.Spec.d2ref (fun i k => Read.val_main_v4 (F := Ideal) x0 (ix2 i k)))
          (fun i => Read.val_main_v7 (F := Ideal) x1 (ix2 i (0 : Fin 1))) i j := by
  rw [Read.val_main_v30_apply, mask_apply, Cert.Spec.masked]
  by_cases hlt : i < j
  · rw [if_pos hlt, if_pos hlt, select_one, Read.val_main_v29_apply, Ideal.mulf_def, Read.val_main_v28_apply, Ideal.subf_def,
      Read.val_main_v27_apply, Ideal.hostDivf_def, Read.val_main_v25_apply, Ideal.hostUnary_sqrt_def, Read.val_main_v24_apply,
      mask_apply, if_pos hlt, select_one, d2_apply, ldiff_apply, Read.val_main_v26_apply, Read.val_main_cst_2_apply,
      Ideal.ofBits_def]
    rfl
  · rw [if_neg hlt, if_neg hlt, select_zero, Read.val_main_call2_v1_apply, Read.val_main_call2_v0_apply,
      Read.val_main_cst_3_apply, Ideal.ofBits_def, Ideal.ofBits_zero_f32]

/-- THE REFERENCE'S RESULT is the loss of the stacked matrix and the tiled column: the sum over every index of the masked
    array, from `0`, is the double sum over rows and columns; divided by the number of pairs. -/
theorem result_eq (x0 : (⟨S512x2x128, .f32⟩ : BufTy).Contents (Elt Ideal)) (x1 : (⟨S512x1, .f32⟩ : BufTy).Contents (Elt Ideal)) :
    Read.val_main_v32 (F := Ideal) x0 x1
      = fun _ => Cert.Spec.lossRef (fun i k => Read.val_main_v4 (F := Ideal) x0 (ix2 i k))
          (fun i => Read.val_main_v7 (F := Ideal) x1 (ix2 i (0 : Fin 1))) := by
  funext i0
  rw [Read.val_main_v32_apply, Ideal.hostDivf_def, Read.val_main_cst_5_apply, Ideal.ofBits_def, Read.val_main_v31_apply,
    Read.val_main_cst_4_apply, Ideal.ofBits_def, Ideal.ofBits_zero_f32, zero_add, sum_idx2]
  unfold Cert.Spec.lossRef
  refine congrArg (fun s => Ideal.div s Cert.Spec.npairs) ?_
  exact Finset.sum_congr rfl fun i _ => Finset.sum_congr rfl fun j _ => term_apply x0 x1 i j

end Cert.ReferenceIdeal.RefValue

end
-- ==== Proof.KI.Blocks.lean ====
import proofs.«100146_j50757923504321_1_alg».proof.Proof.KI.Shared
import proofs.«100146_j50757923504321_1_alg».proof.Proof.RefValue
import proofs.«100146_j50757923504321_1_alg».proof.Proof.Spec
import Idealize.ShloMosaic.Lib.ValueIdx
import Idealize.ShloMosaic.Lib.StableHlo.Run

/-!
What the loss kernel's region finds in its arrays, and what each window's block is.

The eight host operations in front of the region are the reference's own first eight: they stack the two views of the
features into the matrix `f` (1024 rows of 128 numbers) and tile the labels into the column `ℓ` (1024 numbers), and
leave the two arguments as they were. So the region's feature array and label array are the same terms of the arguments
as the reference's.

Window 0 hands the kernel, at grid point `t`, rows `256 t … 256 t + 255` of `f`; window 2 the same rows of `ℓ`;
windows 1 and 3 the whole of `f` and of `ℓ`. An element of a block sits in the array at block index × block size +
the coordinate inside the block, on each axis.
-/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the region finds -/

/-- The host prefix does not write the feature argument. -/
theorem V_arg0 (c : Dev nD) : V m c main_arg0 = m ((c : Thread nD τ).loc main_arg0) := by
  dsimp only [V, V0]
  simp only [hostOps0, List.flatten_cons, List.flatten_nil, List.append_nil]
  after_results

/-- The host prefix does not write the label argument. -/
theorem V_arg1 (c : Dev nD) : V m c main_arg1 = m ((c : Thread nD τ).loc main_arg1) := by
  dsimp only [V, V0]
  simp only [hostOps0, List.flatten_cons, List.flatten_nil, List.append_nil]
  after_results

/-- The feature array the region finds is the reference's stacked matrix of the feature argument: two slices, two
    reshapes and a concatenation, the same five operations. -/
theorem V_feat (c : Dev nD) :
    V m c main_v4 = Cert.ReferenceIdeal.Read.val_main_v4 (F := F) (m ((c : Thread nD τ).loc main_arg0)) := by
  dsimp only [V, V0]
  simp only [hostOps0, List.flatten_cons, List.flatten_nil, List.append_nil]
  after_results
  rfl

/-- The label array the region finds is the reference's tiled column of the label argument: a reshape, a broadcast and
    a reshape, the same three operations. -/
theorem V_lab (c : Dev nD) :
    V m c main_v7 = Cert.ReferenceIdeal.Read.val_main_v7 (F := F) (m ((c : Thread nD τ).loc main_arg1)) := by
  dsimp only [V, V0]
  simp only [hostOps0, List.flatten_cons, List.flatten_nil, List.append_nil]
  after_results
  rfl

/-! ## The windows' block indices, decided over the four grid points -/

/-- A grid point's number is below 4. -/
theorem pt_lt (t : Fin cfg0.N) : t.val < 4 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-! ## The blocks -/

/-- Window 0's block at point `t` is rows `256 t … 256 t + 255` of the feature array. -/
theorem iblk0_apply (c : Dev nD) (t : Fin cfg0.N) (r : Fin 256) (k : Fin 128) :
    iblk m c 0 t (ix2 r k) = V m c main_v4 (ix2 (Cert.Spec.row ⟨t.val, pt_lt t⟩ r) k) := by
  unfold iblk
  rw [View.read_apply]
  show V m c main_v4 _ = V m c main_v4 _
  congr 1
  funext a
  apply Fin.ext
  match a with
  | ⟨0, _⟩ => show win0_0.index t 0 * 256 + 1 * r.val = 256 * t.val + r.val; rw [(index0 t).1]; omega
  | ⟨1, _⟩ => show win0_0.index t 1 * 128 + 1 * k.val = k.val; rw [(index0 t).2]; omega

/-- Window 1's block is the whole feature array, element by element … -/
theorem iblk1_apply (c : Dev nD) (t : Fin cfg0.N) (i : Fin 1024) (k : Fin 128) :
    iblk m c 1 t (ix2 i k) = V m c main_v4 (ix2 i k) := by
  unfold iblk
  rw [View.read_apply]
  show V m c main_v4 _ = V m c main_v4 _
  congr 1
  funext a
  apply Fin.ext
  match a with
  | ⟨0, _⟩ => show win0_1.index t 0 * 1024 + 1 * i.val = i.val; rw [(index1 t).1]; omega
  | ⟨1, _⟩ => show win0_1.index t 1 * 128 + 1 * k.val = k.val; rw [(index1 t).2]; omega

/-- … so as a function. -/
theorem iblk1_eq (c : Dev nD) (t : Fin cfg0.N) : (iblk m c 1 t : Vec F S1024x128 .f32) = V m c main_v4 := by
  funext j
  rw [eq_ix2 j]
  exact iblk1_apply m c t (j 0) (j 1)

/-- Window 2's block at point `t` is rows `256 t … 256 t + 255` of the label array. -/
theorem iblk2_apply (c : Dev nD) (t : Fin cfg0.N) (r : Fin 256) :
    iblk m c 2 t (ix2 r (0 : Fin 1)) = V m c main_v7 (ix2 (Cert.Spec.row ⟨t.val, pt_lt t⟩ r) (0 : Fin 1)) := by
  unfold iblk
  rw [View.read_apply]
  show V m c main_v7 _ = V m c main_v7 _
  congr 1
  funext a
  apply Fin.ext
  match a with
  | ⟨0, _⟩ => show win0_2.index t 0 * 256 + 1 * r.val = 256 * t.val + r.val; rw [(index2 t).1]; omega
  | ⟨1, _⟩ => show win0_2.index t 1 * 1 + 1 * 0 = 0; rw [(index2 t).2]

/-- Window 3's block is the whole label array, element by element … -/
theorem iblk3_apply (c : Dev nD) (t : Fin cfg0.N) (i : Fin 1024) :
    iblk m c 3 t (ix2 i (0 : Fin 1)) = V m c main_v7 (ix2 i (0 : Fin 1)) := by
  unfold iblk
  rw [View.read_apply]
  show V m c main_v7 _ = V m c main_v7 _
  congr 1
  funext a
  apply Fin.ext
  match a with
  | ⟨0, _⟩ => show win0_3.index t 0 * 1024 + 1 * i.val = i.val; rw [(index3 t).1]; omega
  | ⟨1, _⟩ => show win0_3.index t 1 * 1 + 1 * 0 = 0; rw [(index3 t).2]

/-- … so as a function. -/
theorem iblk3_eq (c : Dev nD) (t : Fin cfg0.N) : (iblk m c 3 t : Vec F S1024x1 .f32) = V m c main_v7 := by
  funext j
  have h1 : (j 1).val < 1 := idx2_lt1 j
  have e : j = ix2 (j 0) (0 : Fin 1) := by
    funext a
    match a with
    | ⟨0, _⟩ => rfl
    | ⟨1, _⟩ => exact Fin.ext (by show (j 1).val = 0; omega)
  rw [e]
  exact iblk3_apply m c t (j 0)

end Cert.KernelIdeal.Frame

end
-- ==== Proof.KI.Payload.lean ====
import proofs.«100146_j50757923504321_1_alg».proof.Proof.Gen.KernelIdeal.Skeleton
import proofs.«100146_j50757923504321_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

/-!
The loss kernel's arithmetic, read at an index, at the ideal values.

At grid point `t` the kernel holds rows `256 t … 256 t + 255` of the feature matrix (a `256 × 128` tile) and of the label
column, and the whole `1024 × 128` matrix and label column. From them it forms three `256 × 1024` arrays: the label
differences `|ℓ_tile r − ℓ_all c|`; the mask "row `256 t + r` lies strictly before column `c`", a signed comparison of
32-bit words none of which wraps; and the distances `√(select (mask, (‖a_r‖² + ‖b_c‖²) − 2 · (a bᵀ)(r, c), 1))`, the product
being the sum over the 128 features of the products of the entries and each squared norm a sum along the lanes from the zero
word. The update adds to the accumulator the sum over rows and columns of `select (mask, (dist / 2 − ldiff)², 0)`; the last
point divides the accumulator by the number of pairs.

Each array payload is read at `(r, c)` by one lemma (`pay4_apply`, `pay5_apply`, `pay6_apply`), the update at its one index
by `pay1_apply`, each over variables of the literal vector types. `tile_eq` puts them together against the specification:
where the mask is set the entry is the pair's term with the squared distance taken by norms and inner product; where it
is clear the entry is `0`, the value under the root there being of no account.
-/

set_option maxRecDepth 16384

noncomputable section

namespace Cert.KernelIdeal.Pay

open Cert.KernelIdeal Cert.KernelIdeal.Gen
open Idealize.ShloMosaic Idealize.ShloMosaic.ValueIdx
open scoped BigOperators

/-! ## The two small payloads -/

/-- The reset value: the zero splat, a cast to its own shape away. -/
theorem pay3_eq : (k0_pay3 (F := Ideal)) = fun _ => (0 : EReal) := by
  unfold k0_pay3
  funext j
  rw [shapeCast_self]
  show Ideal.ofBits .f32 0x00000000#32 = 0
  exact Ideal.ofBits_zero_f32

/-- The `1 × 1` shape has one index. -/
theorem idx11 (j : S1x1.Idx) : j = ix2 (0 : Fin 1) (0 : Fin 1) := by
  funext a
  match a with
  | ⟨0, _⟩ => exact Fin.ext (by have := idx2_lt0 j; show (j 0).val = 0; omega)
  | ⟨1, _⟩ => exact Fin.ext (by have := idx2_lt1 j; show (j 1).val = 0; omega)

/-- The output value: the accumulator divided by the number of pairs. -/
theorem pay2_eq (v : Vec Ideal S1x1 .f32) :
    k0_pay2 (F := Ideal) v = fun _ => Ideal.div (v (ix2 0 0)) Cert.Spec.npairs := by
  unfold k0_pay2
  funext j
  rw [idx11 j]
  rfl

/-! ## Layout operations of a column, read at an index by coordinates -/

section Layout
variable {α : Type}

/-- A column `[a, 1]` broadcast along the lanes to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## A lane sum and a sublane sum of a matrix, read at an index -/

/-- The sum along the lanes (axis 1) of an `[a, b]` matrix from the zero word, at row `r`: `∑ k, src (r, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src ?_
  funext d
  match d with
  | ⟨0, _⟩ => rfl
  | ⟨1, _⟩ => rfl

/-- The sum along the sublanes (axis 0) of an `[a, b]` matrix from the zero word, at column `c`: `∑ k, src (k, c)`. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (c : Fin b) :
    multiReduction (F := Ideal) .add [0] ⟨1, ![b]⟩ src 0x00000000#32 h hφ hacc (ix1 c) = ∑ k : Fin a, src (ix2 k c) := by
  refine (Ideal.multiReduction_add_single src 0x00000000#32 h hφ hacc (ix1 c)).trans ?_
  refine Finset.sum_congr rfl fun k _ => congrArg src ?_
  funext d
  match d with
  | ⟨0, _⟩ => rfl
  | ⟨1, _⟩ => rfl

/-! ## The product of the feature tile with the transposed feature matrix, read at an index -/

/-- The left operand's row is the result's row … -/
theorem lhs_dot_0 (i : S256x1024.Idx) (q : dot_S256x128_S1024x128_S256x1024_1_1_0_0_n_n.contr.Idx) :
    (dot_S256x128_S1024x128_S256x1024_1_1_0_0_n_n.lhsIdx i q 0).val = (i 0).val := by
  unfold DotDims.lhsIdx
  rw [dif_neg (show ¬(0 : Fin S256x128.rank) ∈ dot_S256x128_S1024x128_S256x1024_1_1_0_0_n_n.lhsBatch by decide),
    dif_pos (show (0 : Fin S256x128.rank) ∈ dot_S256x128_S1024x128_S256x1024_1_1_0_0_n_n.lhsNonContracting by decide)]
  rfl
/-- … its column the contraction's coordinate; -/
theorem lhs_dot_1 (i : S256x1024.Idx) (q : dot_S256x128_S1024x128_S256x1024_1_1_0_0_n_n.contr.Idx) :
    (dot_S256x128_S1024x128_S256x1024_1_1_0_0_n_n.lhsIdx i q 1).val = (q ⟨0, by decide⟩).val :=
  dot_S256x128_S1024x128_S256x1024_1_1_0_0_n_n.lhsIdx_val_of_single rfl i q
/-- the right operand's row is the result's column … -/
theorem rhs_dot_0 (i : S256x1024.Idx) (q : dot_S256x128_S1024x128_S256x1024_1_1_0_0_n_n.contr.Idx) :
    (dot_S256x128_S1024x128_S256x1024_1_1_0_0_n_n.rhsIdx i q 0).val = (i 1).val := by
  unfold DotDims.rhsIdx
  rw [dif_neg (show ¬(0 : Fin S1024x128.rank) ∈ dot_S256x128_S1024x128_S256x1024_1_1_0_0_n_n.rhsBatch by decide),
    dif_pos (show (0 : Fin S1024x128.rank) ∈ dot_S256x128_S1024x128_S256x1024_1_1_0_0_n_n.rhsNonContracting by decide)]
  rfl
/-- … and its column the contraction's coordinate. -/
theorem rhs_dot_1 (i : S256x1024.Idx) (q : dot_S256x128_S1024x128_S256x1024_1_1_0_0_n_n.contr.Idx) :
    (dot_S256x128_S1024x128_S256x1024_1_1_0_0_n_n.rhsIdx i q 1).val = (q ⟨0, by decide⟩).val :=
  dot_S256x128_S1024x128_S256x1024_1_1_0_0_n_n.rhsIdx_val_of_single rfl i q

/-- The product into the zero accumulator at `(r, c)`: `∑ k, A (r, k) · B (c, k)`, the inner product of row `r` of the
    tile with row `c` of the matrix. -/
theorem matmul_rc (A : FVec Ideal S256x128 .bf16) (B : FVec Ideal S1024x128 .bf16) (r : Fin 256) (c : Fin 1024) :
    matmul dot_S256x128_S1024x128_S256x1024_1_1_0_0_n_n none A B (constant (F := Ideal) S256x1024 .f32 0x00000000#32) (ix2 r c)
      = ∑ k : Fin 128, A (ix2 r k) * B (ix2 c k) := by
  simp only [matmul]
  rw [Ideal.matmul_constant_zero_apply,
    ← Equiv.sum_comp (contrEquiv1 dot_S256x128_S1024x128_S256x1024_1_1_0_0_n_n 128 rfl rfl).symm]
  refine Finset.sum_congr rfl fun k _ => ?_
  have hk := contrEquiv1_symm_val dot_S256x128_S1024x128_S256x1024_1_1_0_0_n_n 128 rfl rfl k
  have el : dot_S256x128_S1024x128_S256x1024_1_1_0_0_n_n.lhsIdx (ix2 r c)
      ((contrEquiv1 dot_S256x128_S1024x128_S256x1024_1_1_0_0_n_n 128 rfl rfl).symm k) = ix2 r k :=
    funext fun a => Fin.ext (by
      match a with
      | ⟨0, _⟩ => exact lhs_dot_0 _ _
      | ⟨1, _⟩ => exact (lhs_dot_1 _ _).trans hk)
  have er : dot_S256x128_S1024x128_S256x1024_1_1_0_0_n_n.rhsIdx (ix2 r c)
      ((contrEquiv1 dot_S256x128_S1024x128_S256x1024_1_1_0_0_n_n 128 rfl rfl).symm k) = ix2 c k :=
    funext fun a => Fin.ext (by
      match a with
      | ⟨0, _⟩ => exact rhs_dot_0 _ _
      | ⟨1, _⟩ => exact (rhs_dot_1 _ _).trans hk)
  rw [el, er]

/-! ## The label differences and the mask at an index -/

/-- The label payload at `(r, c)`: `|ℓ_tile r − ℓ_all c|`, the absolute value as the larger of the difference and its negative. -/
theorem pay4_apply (x2 : Vec Ideal S256x1 .f32) (x3 : Vec Ideal S1024x1 .f32) (r : Fin 256) (c : Fin 1024) :
    k0_pay4 (F := Ideal) x2 x3 (ix2 r c)
      = max (x2 (ix2 r (0 : Fin 1)) - x3 (ix2 c (0 : Fin 1))) (-(x2 (ix2 r (0 : Fin 1)) - x3 (ix2 c (0 : Fin 1)))) := by
  unfold k0_pay4
  show max (_ - _) (-(_ - _)) = _
  rw [broadcastTo_a1_ab_apply, broadcastTo_1b_ab_apply, transpose_ix2_apply]

/-- The mask's comparison on 32-bit words: for a tile number below 4, a row below 256 and a column below 1024 nothing
    wraps and every word is non-negative, so the signed comparison of the words is the comparison of the numbers. -/
theorem mask_word (t r c : ℕ) (ht : t < 4) (hr : r < 256) (hc : c < 1024) :
    IntOp.cmpi .slt (IntOp.addi (Scalar.muli (BitVec.ofNat 32 t) 256#32) (BitVec.ofNat 32 r)) (BitVec.ofNat 32 c) = 1#1
      ↔ 256 * t + r < c := by
  have ha : (IntOp.addi (Scalar.muli (BitVec.ofNat 32 t) 256#32) (BitVec.ofNat 32 r)).toNat = 256 * t + r := by
    simp only [IntOp.addi, Scalar.muli, IntOp.muli, BitVec.toNat_add, BitVec.toNat_mul, BitVec.toNat_ofNat]
    omega
  have hb : (BitVec.ofNat 32 c).toNat = c := by
    simp only [BitVec.toNat_ofNat]; omega
  rw [StableHlo.Predicate.slt_iff_toNat (by omega) (by omega), ha, hb]

/-- The mask payload at `(r, c)` of tile `t`: set exactly when row `256 t + r` lies strictly before column `c`. -/
theorem pay5_apply (t : Fin 4) (i : grid0.Coords) (hi : (i 0).val = t.val) (r : Fin 256) (c : Fin 1024) :
    k0_pay5 i (ix2 r c) = 1#1 ↔ 256 * t.val + r.val < c.val := by
  unfold k0_pay5
  show IntOp.cmpi .slt (broadcastTo S256x1024 _ _ (ix2 r c)) (broadcastTo S256x1024 _ _ (ix2 r c)) = 1#1 ↔ _
  rw [broadcastTo_a1_ab_apply, broadcastTo_1b_ab_apply]
  show IntOp.cmpi .slt (IntOp.addi (Scalar.muli (BitVec.ofNat 32 (i 0).val) 256#32) (iota .tc S256x1 32 [0] _ (ix2 r (0 : Fin 1))))
      (iota .tc S1x1024 32 [1] _ (ix2 (0 : Fin 1) c)) = 1#1 ↔ _
  rw [iota_single_apply, iota_single_apply, hi]
  exact mask_word t.val r.val c.val t.isLt r.isLt c.isLt

/-! ## The distances at an index -/

/-- The distance payload at `(r, c)`: the square root of, where the mask is set, the two squared norms' sum less twice the
    inner product, and of the literal `1` elsewhere. -/
theorem pay6_apply (i : grid0.Coords) (x0 : Vec Ideal S256x128 .f32) (x1 : Vec Ideal S1024x128 .f32) (r : Fin 256) (c : Fin 1024) :
    k0_pay6 (F := Ideal) i x0 x1 (ix2 r c)
      = Ideal.sqrt (Scalar.select (k0_pay5 i (ix2 r c))
          (((∑ k : Fin 128, x0 (ix2 r k) * x0 (ix2 r k)) + ∑ k : Fin 128, x1 (ix2 c k) * x1 (ix2 c k))
            - Cert.Spec.two * ∑ k : Fin 128, x0 (ix2 r k) * x1 (ix2 c k))
          (Ideal.ofBits .f32 0x3F800000#32)) := by
  unfold k0_pay6
  rw [shapeCast_self x0, shapeCast_self x1]
  show Ideal.sqrt (Scalar.select (k0_pay5 i (ix2 r c))
      ((broadcastTo S256x1024 _ _ (ix2 r c) + broadcastTo S256x1024 _ _ (ix2 r c))
        - Cert.Spec.two * matmul (F := Ideal) _ none _ _ _ (ix2 r c)) (Ideal.ofBits .f32 0x3F800000#32)) = _
  rw [broadcastTo_a1_ab_apply, broadcastTo_1b_ab_apply, transpose_ix2_apply, shapeCast_a_a1_apply, shapeCast_a_a1_apply,
    rowSum_apply, rowSum_apply, matmul_rc]
  rfl

/-! ## The accumulator's update -/

/-- The update payload at its one index: the loaded accumulator plus the sum, over the tile's rows and all columns, of the
    masked squared errors `select (mask, (dist / 2 − ldiff)², 0)`. -/
theorem pay1_apply (v29 : FVec Ideal S256x1024 .f32) (v37 : IVec S256x1024 1) (v40 : FVec Ideal S256x1024 .f32) (cst : Ideal .f32)
    (v51 : Vec Ideal S1x1 .f32) :
    k0_pay1 (F := Ideal) v29 v37 v40 cst v51 (ix2 (0 : Fin 1) (0 : Fin 1))
      = v51 (ix2 (0 : Fin 1) (0 : Fin 1)) + ∑ r : Fin 256, ∑ c : Fin 1024,
          Scalar.select (v37 (ix2 r c))
            ((Ideal.div (v40 (ix2 r c)) cst - v29 (ix2 r c)) * (Ideal.div (v40 (ix2 r c)) cst - v29 (ix2 r c))) (0 : EReal) := by
  unfold k0_pay1
  rw [shapeCast_self]
  show v51 (ix2 (0 : Fin 1) (0 : Fin 1)) + shapeCast S1x1 _ _ (ix2 (0 : Fin 1) (0 : Fin 1)) = _
  rw [shapeCast_a_a1_apply, colSum_apply]
  refine congrArg (v51 (ix2 (0 : Fin 1) (0 : Fin 1)) + ·) (Finset.sum_congr rfl fun r _ => ?_)
  rw [shapeCast_a_a1_apply, rowSum_apply]
  refine Finset.sum_congr rfl fun c _ => ?_
  show Scalar.select _ _ (Ideal.ofBits .f32 0x00000000#32) = _
  rw [Ideal.ofBits_zero_f32]
  rfl

/-! ## One tile's update is the accumulator plus the tile's sum -/

/-- One entry of the double sum: at row `r` of tile `t` and column `c` the masked squared error is the specification's
    pair term. Where the mask is set the inner select keeps the kernel's squared distance under the root and the outer
    one keeps the squared error; where it is clear the outer select takes `0`, whatever the root of the literal `1` is. -/
theorem entry_eq (t : Fin 4) (i : grid0.Coords) (hi : (i 0).val = t.val) (F1024 : Fin 1024 → Fin 128 → EReal) (L1024 : Fin 1024 → EReal)
    (x0 : Vec Ideal S256x128 .f32) (x1 : Vec Ideal S1024x128 .f32) (x2 : Vec Ideal S256x1 .f32) (x3 : Vec Ideal S1024x1 .f32)
    (h0 : ∀ (r : Fin 256) (k : Fin 128), x0 (ix2 r k) = F1024 (Cert.Spec.row t r) k) (h1 : ∀ (c : Fin 1024) (k : Fin 128), x1 (ix2 c k) = F1024 c k)
    (h2 : ∀ r : Fin 256, x2 (ix2 r 0) = L1024 (Cert.Spec.row t r)) (h3 : ∀ c : Fin 1024, x3 (ix2 c 0) = L1024 c)
    (r : Fin 256) (c : Fin 1024) :
    Scalar.select (k0_pay5 i (ix2 r c))
        ((Ideal.div (k0_pay6 (F := Ideal) i x0 x1 (ix2 r c)) (Scalar.ofBits (F := Ideal) .f32 0x40000000#32) - k0_pay4 (F := Ideal) x2 x3 (ix2 r c))
          * (Ideal.div (k0_pay6 (F := Ideal) i x0 x1 (ix2 r c)) (Scalar.ofBits (F := Ideal) .f32 0x40000000#32) - k0_pay4 (F := Ideal) x2 x3 (ix2 r c)))
        (0 : EReal)
      = Cert.Spec.masked (Cert.Spec.d2ker F1024) L1024 (Cert.Spec.row t r) c := by
  unfold Cert.Spec.masked
  by_cases hm : k0_pay5 i (ix2 r c) = 1#1
  · have hrc : Cert.Spec.row t r < c := (pay5_apply t i hi r c).mp hm
    rw [if_pos hrc, pay6_apply, pay4_apply]
    simp only [hm, select_one, h0, h1, h2, h3]
    rfl
  · have hrc : ¬Cert.Spec.row t r < c := fun h => hm ((pay5_apply t i hi r c).mpr h)
    rw [if_neg hrc, eq_zero_of_ne_one hm, select_zero]

/-- THE TILE: the update payload over the three array payloads of tile `t` is the loaded accumulator plus the tile's sum of
    the specification, the squared distance taken the kernel's way. -/
theorem tile_eq (t : Fin 4) (i : grid0.Coords) (hi : (i 0).val = t.val) (F1024 : Fin 1024 → Fin 128 → EReal) (L1024 : Fin 1024 → EReal)
    (x0 : Vec Ideal S256x128 .f32) (x1 : Vec Ideal S1024x128 .f32) (x2 : Vec Ideal S256x1 .f32) (x3 : Vec Ideal S1024x1 .f32)
    (h0 : ∀ (r : Fin 256) (k : Fin 128), x0 (ix2 r k) = F1024 (Cert.Spec.row t r) k) (h1 : ∀ (c : Fin 1024) (k : Fin 128), x1 (ix2 c k) = F1024 c k)
    (h2 : ∀ r : Fin 256, x2 (ix2 r 0) = L1024 (Cert.Spec.row t r)) (h3 : ∀ c : Fin 1024, x3 (ix2 c 0) = L1024 c) (acc : Vec Ideal S1x1 .f32) :
    k0_pay1 (F := Ideal) (k0_pay4 x2 x3) (k0_pay5 i) (k0_pay6 i x0 x1) (Scalar.ofBits .f32 0x40000000#32) acc
      = fun _ => acc (ix2 0 0) + Cert.Spec.tileSum (Cert.Spec.d2ker F1024) L1024 t := by
  funext j
  rw [idx11 j, pay1_apply]
  unfold Cert.Spec.tileSum
  exact congrArg (acc (ix2 (0 : Fin 1) (0 : Fin 1)) + ·) (Finset.sum_congr rfl fun r _ => Finset.sum_congr rfl fun c _ =>
    entry_eq t i hi F1024 L1024 x0 x1 x2 x3 h0 h1 h2 h3 r c)

end Cert.KernelIdeal.Pay

end
-- ==== Proof.KI.Loss.lean ====
import proofs.«100146_j50757923504321_1_alg».proof.Proof.KI.Value
import proofs.«100146_j50757923504321_1_alg».proof.Proof.KI.Blocks
import proofs.«100146_j50757923504321_1_alg».proof.Proof.KI.Payload
import proofs.«100146_j50757923504321_1_alg».proof.Proof.Spec

/-!
At the exact instance the result the kernel leaves is the loss in the kernel's form: each tile's update adds that
tile's sum of masked squared errors (over the squared distances by norms and inner product) to the accumulator, the
first one to zero, and the last point divides by the number of pairs.
-/

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The stacked feature matrix and the tiled label column as the region finds them, by row. -/
def feat (c : Dev nD) : Fin 1024 → Fin 128 → EReal := fun i k => V m c main_v4 (ix2 i k)
def lab (c : Dev nD) : Fin 1024 → EReal := fun i => V m c main_v7 (ix2 i (0 : Fin 1))

theorem coord0 : ∀ t : Fin cfg0.N, ((grid0.coords t) 0).val = t.val :=
  (by decide +kernel : ∀ t : Fin grid0.N, ((grid0.coords t) 0).val = t.val)

/-- One tile's update: the accumulator plus the tile's sum. -/
theorem step_eq (c : Dev nD) (t : Fin cfg0.N) (a : Vec Ideal S1x1 .f32) :
    step (grid0.coords t) (iblk m c 0 t) (iblk m c 1 t) (iblk m c 2 t) (iblk m c 3 t) a
      = fun _ => a (ix2 (0 : Fin 1) (0 : Fin 1)) + Cert.Spec.tileSum (Cert.Spec.d2ker (feat m c)) (lab m c) ⟨t.val, pt_lt t⟩ :=
  Cert.KernelIdeal.Pay.tile_eq ⟨t.val, pt_lt t⟩ (grid0.coords t) (coord0 t) (feat m c) (lab m c)
    (iblk m c 0 t) (iblk m c 1 t) (iblk m c 2 t) (iblk m c 3 t)
    (fun r k => iblk0_apply m c t r k) (fun i k => iblk1_apply m c t i k) (fun r => iblk2_apply m c t r) (fun i => iblk3_apply m c t i) a

theorem lt0 : 0 < cfg0.N := by rw [show cfg0.N = 4 from N_0]; decide
theorem lt1 : 1 < cfg0.N := by rw [show cfg0.N = 4 from N_0]; decide
theorem lt2 : 2 < cfg0.N := by rw [show cfg0.N = 4 from N_0]; decide

theorem acc0 (c : Dev nD) : acc m c 0 lt0 = fun _ => (0 : EReal) + Cert.Spec.tileSum (Cert.Spec.d2ker (feat m c)) (lab m c) 0 :=
  (step_eq m c ⟨0, lt0⟩ (k0_pay3 (F := Ideal))).trans (by rw [Cert.KernelIdeal.Pay.pay3_eq]; rfl)

theorem acc1 (c : Dev nD) : acc m c 1 lt1 = fun _ => ((0 : EReal) + Cert.Spec.tileSum (Cert.Spec.d2ker (feat m c)) (lab m c) 0)
      + Cert.Spec.tileSum (Cert.Spec.d2ker (feat m c)) (lab m c) 1 :=
  (step_eq m c ⟨1, lt1⟩ (acc m c 0 lt0)).trans (by rw [acc0]; rfl)

theorem acc2 (c : Dev nD) : acc m c 2 lt2 = fun _ => (((0 : EReal) + Cert.Spec.tileSum (Cert.Spec.d2ker (feat m c)) (lab m c) 0)
      + Cert.Spec.tileSum (Cert.Spec.d2ker (feat m c)) (lab m c) 1) + Cert.Spec.tileSum (Cert.Spec.d2ker (feat m c)) (lab m c) 2 :=
  (step_eq m c ⟨2, lt2⟩ (acc m c 1 lt1)).trans (by rw [acc1]; rfl)

theorem acc3 (c : Dev nD) : acc m c 3 lt3 = fun _ => ((((0 : EReal) + Cert.Spec.tileSum (Cert.Spec.d2ker (feat m c)) (lab m c) 0)
      + Cert.Spec.tileSum (Cert.Spec.d2ker (feat m c)) (lab m c) 1) + Cert.Spec.tileSum (Cert.Spec.d2ker (feat m c)) (lab m c) 2)
      + Cert.Spec.tileSum (Cert.Spec.d2ker (feat m c)) (lab m c) 3 :=
  (step_eq m c ⟨3, lt3⟩ (acc m c 2 lt2)).trans (by rw [acc2]; rfl)

/-- The result array holds the kernel-form loss. -/
theorem result_loss (c : Dev nD) : result m c = fun _ => Cert.Spec.lossKer (feat m c) (lab m c) := by
  show k0_pay2 (F := Ideal) (acc m c 3 lt3) = _
  rw [Cert.KernelIdeal.Pay.pay2_eq, acc3]
  rfl

end Cert.KernelIdeal.Frame

end
-- ==== Proof.SpecLaws.lean ====
import proofs.«100146_j50757923504321_1_alg».proof.Proof.Spec
import Mathlib.Data.EReal.Operations
import Mathlib.Algebra.BigOperators.Ring.Finset
import Mathlib.Algebra.BigOperators.Fin
import Mathlib.Logic.Equiv.Fin.Basic
import Mathlib.Tactic.Ring
import Mathlib.Tactic.NormNum

/-!
The algebra behind the two spellings of the loss.

* The literal `two` is the real number `2`.
* On real entries the squared distance by norms and inner product is the sum of the squared differences: both are
  coercions of real numbers, and in `ℝ` one has `Σ (a − b)² = (Σ a² + Σ b²) − 2 Σ a b` (expand each square and
  distribute the finite sum).
* The `1024` rows are the disjoint union of four tiles of `256` rows, `(t, r) ↦ 256 t + r` being a bijection
  `Fin 4 × Fin 256 ≃ Fin 1024`; a sum over all rows is therefore the sum of the four tile sums. This needs only that
  addition is commutative and associative, which holds on the extended reals with no finiteness assumption.
-/

noncomputable section

namespace Cert.Spec

open Idealize.ShloMosaic

/-- The pattern `0x40000000` (sign `0`, exponent `128`, significand `0`) denotes `2²³ · 2^(128 − 127 − 23) = 2`. -/
theorem two_eq : two = ((2 : ℝ) : EReal) := by
  simp [two, Ideal.ofBits, Ideal.ieee, -EReal.coe_mul]; norm_num

/-- The coercion `ℝ → EReal` commutes with finite sums (it is additive and sends `0` to `0`). -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- In `ℝ`: `(Σ a² + Σ b²) − 2 Σ a b = Σ (a − b)²`. -/
theorem real_expand {ι : Type*} (s : Finset ι) (a b : ι → ℝ) :
    (∑ k ∈ s, a k * a k + ∑ k ∈ s, b k * b k) - 2 * ∑ k ∈ s, a k * b k
      = ∑ k ∈ s, (a k - b k) * (a k - b k) := by
  rw [Finset.mul_sum, ← Finset.sum_add_distrib, ← Finset.sum_sub_distrib]
  exact Finset.sum_congr rfl (fun k _ => by ring)

/-- On real entries the two squared distances are the same real number. -/
theorem d2ker_eq_d2ref (f : Fin 1024 → Fin 128 → EReal) (hf : ∀ i k, ∃ x : ℝ, f i k = (x : EReal))
    (i j : Fin 1024) : d2ker f i j = d2ref f i j := by
  choose g hg using hf
  have hii : ∑ k, f i k * f i k = ((∑ k, g i k * g i k : ℝ) : EReal) := by
    rw [coe_sum]; exact Finset.sum_congr rfl (fun k _ => by rw [hg, EReal.coe_mul])
  have hjj : ∑ k, f j k * f j k = ((∑ k, g j k * g j k : ℝ) : EReal) := by
    rw [coe_sum]; exact Finset.sum_congr rfl (fun k _ => by rw [hg, EReal.coe_mul])
  have hij : ∑ k, f i k * f j k = ((∑ k, g i k * g j k : ℝ) : EReal) := by
    rw [coe_sum]; exact Finset.sum_congr rfl (fun k _ => by rw [hg, hg, EReal.coe_mul])
  have hd : ∑ k, (f i k - f j k) * (f i k - f j k)
      = ((∑ k, (g i k - g j k) * (g i k - g j k) : ℝ) : EReal) := by
    rw [coe_sum]
    exact Finset.sum_congr rfl (fun k _ => by rw [hg, hg, EReal.coe_mul, EReal.coe_sub])
  unfold d2ker d2ref
  rw [hii, hjj, hij, hd, two_eq, ← EReal.coe_add, ← EReal.coe_mul, ← EReal.coe_sub, real_expand]

/-- The same as an equality of functions. -/
theorem d2ker_eq_d2ref_fun (f : Fin 1024 → Fin 128 → EReal) (hf : ∀ i k, ∃ x : ℝ, f i k = (x : EReal)) :
    d2ker f = d2ref f := by
  funext i j; exact d2ker_eq_d2ref f hf i j

/-- The pair terms agree once the squared distances do. -/
theorem masked_d2ker_eq (f : Fin 1024 → Fin 128 → EReal) (hf : ∀ i k, ∃ x : ℝ, f i k = (x : EReal)) :
    masked (d2ker f) = masked (d2ref f) := by
  rw [d2ker_eq_d2ref_fun f hf]

/-- The four tiles cover the rows exactly once: a sum over all `1024` rows is the sum over the tiles of the sums over
    each tile's `256` rows. -/
theorem sum_rows {M : Type*} [AddCommMonoid M] (g : Fin 1024 → M) :
    ∑ i, g i = ∑ t : Fin 4, ∑ r : Fin 256, g (row t r) := by
  have hrow : ∀ p : Fin 4 × Fin 256, (finProdFinEquiv p : Fin 1024) = row p.1 p.2 := by
    intro p; apply Fin.ext; simp [row, finProdFinEquiv]; omega
  calc ∑ i, g i = ∑ p : Fin 4 × Fin 256, g (finProdFinEquiv p) :=
        (Equiv.sum_comp (finProdFinEquiv (m := 4) (n := 256)) g).symm
    _ = ∑ p : Fin 4 × Fin 256, g (row p.1 p.2) := Fintype.sum_congr _ _ (fun p => by rw [hrow])
    _ = ∑ t : Fin 4, ∑ r : Fin 256, g (row t r) := Fintype.sum_prod_type' (fun t r => g (row t r))

/-- The accumulator after the four tiles is the sum over all rows. -/
theorem acc_eq_sum (d2 : Fin 1024 → Fin 1024 → EReal) (ℓ : Fin 1024 → EReal) :
    (((0 + tileSum d2 ℓ 0) + tileSum d2 ℓ 1) + tileSum d2 ℓ 2) + tileSum d2 ℓ 3
      = ∑ i, ∑ j, masked d2 ℓ i j := by
  rw [sum_rows (fun i => ∑ j, masked d2 ℓ i j), Fin.sum_univ_four, zero_add]
  rfl

/-- The kernel's loss is the reference's loss on real entries. -/
theorem lossKer_eq_lossRef (f : Fin 1024 → Fin 128 → EReal) (ℓ : Fin 1024 → EReal)
    (hf : ∀ i k, ∃ x : ℝ, f i k = (x : EReal)) : lossKer f ℓ = lossRef f ℓ := by
  unfold lossKer lossRef
  rw [acc_eq_sum, masked_d2ker_eq f hf]

end Cert.Spec

end
-- ==== Proof.PreFinite.lean ====
import proofs.«100146_j50757923504321_1_alg».proof.Pre_finite_inputs
import Idealize.ShloMosaic.Lib.ReduceAll
import Idealize.ShloMosaic.Lib.ValueIdx
import Idealize.ShloMosaic.PureOps.Ideal
import Idealize.ShloMosaic.PureOps.Ideal.Laws

/-!
What the printed precondition says of the inputs, on the extended reals.

The precondition is the conjunction of two "all" tests, one per input: every entry `x` satisfies `|x| < +∞`, with
`|x| = max x (−x)` and `+∞` spelled by the pattern `0x7F800000` (exponent all ones, significand zero), which denotes `⊤`.
A conjunction of one-bit words is `1` exactly when both are; an "and"-reduction over all axes that came out `1` met
`1` at every index; and `max x (−x) < ⊤` fails at both infinities (`max ⊥ ⊤ = max ⊤ ⊥ = ⊤`), so each entry is a real.
-/

noncomputable section

namespace Cert.PreFinite

open Idealize.ShloMosaic Cert.Pre_finite_inputs

/-- The rank-0 shape has one index. -/
instance subsingleton_S_Idx : Subsingleton S_.Idx := ⟨fun a b => funext fun d => d.elim0⟩

/-- The pattern `0x7F800000` is `+∞`. -/
theorem ofBits_inf : Ideal.ofBits .f32 0x7F800000#32 = ⊤ := by
  simp [Ideal.ofBits, Ideal.ieee]

/-- An extended real whose absolute value `max x (−x)` is below `⊤` is a real: at `⊥` and at `⊤` the maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" test that came out `1` is the order's `<`. -/
theorem lt_of_cmp_olt (x y : EReal) (h : Ideal.cmp .olt x y = 1#1) : x < y := by
  unfold Ideal.cmp at h
  by_contra hn
  simp [hn] at h

/-- One entry: the test `|x| < +∞` that came out `1` makes `x` a real. -/
theorem real_of_test (x : EReal)
    (h : Ideal.cmp .olt (max x (-x)) (Ideal.ofBits .f32 0x7F800000#32) = 1#1) : ∃ r : ℝ, x = (r : EReal) := by
  rw [ofBits_inf] at h
  exact real_of_abs_lt_top x (lt_of_cmp_olt _ _ h)

/-- The precondition, read back: every entry of both inputs is a real number. -/
theorem real_of_pre [hPre_finite_inputs : Cert.Pre_finite_inputs.Facts]
    (a0 : FVec Ideal S512x2x128 .f32) (a1 : FVec Ideal S512x1 .f32)
    (h : Cert.Pre_finite_inputs.fn (F := Ideal) a0 a1 = (fun _ => 1#1)) :
    (∀ j, ∃ r : ℝ, a0 j = (r : EReal)) ∧ (∀ j, ∃ r : ℝ, a1 j = (r : EReal)) := by
  have h0 := congrFun h ValueIdx.ix0
  dsimp only [Cert.Pre_finite_inputs.fn] at h0
  obtain ⟨h1, h2⟩ := IntOp.andi_eq_one.1 h0
  refine ⟨fun j => ?_, fun j => ?_⟩
  · exact real_of_test (a0 j) (Host.reduce_andi_all _ _ _ _ _ h1 j)
  · exact real_of_test (a1 j) (Host.reduce_andi_all _ _ _ _ _ h2 j)

end Cert.PreFinite

end
-- ==== Proof.Bridge.lean ====
import proofs.«100146_j50757923504321_1_alg».proof.Defs
import proofs.«100146_j50757923504321_1_alg».proof.Proof.Gen.KernelIdeal
import proofs.«100146_j50757923504321_1_alg».proof.Proof.Gen.ReferenceIdeal
import proofs.«100146_j50757923504321_1_alg».proof.Proof.Gen.Pre_finite_inputs
import proofs.«100146_j50757923504321_1_alg».proof.Proof.RefValue
import proofs.«100146_j50757923504321_1_alg».proof.Proof.KI.Blocks
import proofs.«100146_j50757923504321_1_alg».proof.Proof.SpecLaws
import proofs.«100146_j50757923504321_1_alg».proof.Proof.PreFinite

/-!
Where the two programs meet.

The reference ends with the loss `Cert.Spec.lossRef f ℓ` of the stacked matrix `f` and the tiled column `ℓ` of its own
arguments. The kernel ends with `Cert.Spec.lossKer` of the arrays its region finds, and those arrays are the same
`f` and `ℓ` of the kernel's arguments. Under the precondition every entry of the arguments is a real number, so every
entry of `f` is, and on real entries the two forms of the loss are one number. From memories that agree on the
arguments the reference therefore ends with the kernel's value.
-/

noncomputable section

namespace Cert.Bridge

open Idealize.ShloMosaic Idealize.ShloMosaic.TcCoe Idealize.SL.Sem Idealize.ShloMosaic.ValueIdx
open Cert.KernelIdeal.Frame (V)

/-! ## The reference's run, read as the loss -/

/-- The reference terminates with the loss of its stacked matrix and tiled column in its result, its arguments
    unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v32)
          = (fun _ => Cert.Spec.lossRef
              (fun i k => Cert.ReferenceIdeal.Read.val_main_v4 (F := Ideal) (m' ((c.tc : Thread Cert.ReferenceIdeal.nD Cert.ReferenceIdeal.τ).loc Cert.ReferenceIdeal.main_arg0)) (ix2 i k))
              (fun i => Cert.ReferenceIdeal.Read.val_main_v7 (F := Ideal) (m' ((c.tc : Thread Cert.ReferenceIdeal.nD Cert.ReferenceIdeal.τ).loc Cert.ReferenceIdeal.main_arg1)) (ix2 i (0 : Fin 1))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((Cert.ReferenceIdeal.Read.val_main_v32_eq m' c).trans (Cert.ReferenceIdeal.RefValue.result_eq _ _)), (h c).2⟩)
    (Cert.ReferenceIdeal.Value.run m' ρ')

/-- So it runs and leaves its arguments as they were. -/
theorem frame_ri : Cert.frame_ReferenceIdeal := fun m' ρ' _ =>
  (θ_run (Cert.ReferenceIdeal.defs (F := Ideal)) _ _).mono (fun _ h c => (h c).2) (ref_run m' ρ')

/-! ## The two forms of the loss agree under the precondition -/

/-- The kernel's form of the loss, of the arrays its region finds, is the reference's form of the loss of the stacked
    matrix and tiled column of the kernel's arguments: the arrays are those terms, and the precondition makes every
    entry real. -/
theorem loss_bridge (m : (ℓ : Loc Cert.KernelIdeal.nD Cert.KernelIdeal.τ Cert.KernelIdeal.sig) → Buf (Elt Ideal) ℓ) (c : Dev Cert.KernelIdeal.nD)
    (hpre : Cert.Pre_KernelIdeal m) :
    Cert.Spec.lossKer (fun i k => V m c Cert.KernelIdeal.main_v4 (ix2 i k)) (fun i => V m c Cert.KernelIdeal.main_v7 (ix2 i (0 : Fin 1)))
      = Cert.Spec.lossRef
          (fun i k => Cert.ReferenceIdeal.Read.val_main_v4 (F := Ideal) (m ((c.tc : Thread Cert.KernelIdeal.nD Cert.KernelIdeal.τ).loc Cert.KernelIdeal.main_arg0)) (ix2 i k))
          (fun i => Cert.ReferenceIdeal.Read.val_main_v7 (F := Ideal) (m ((c.tc : Thread Cert.KernelIdeal.nD Cert.KernelIdeal.τ).loc Cert.KernelIdeal.main_arg1)) (ix2 i (0 : Fin 1))) := by
  obtain ⟨h0, h1⟩ := Cert.PreFinite.real_of_pre _ _ (hpre c)
  rw [Cert.KernelIdeal.Frame.V_feat m c, Cert.KernelIdeal.Frame.V_lab m c]
  exact Cert.Spec.lossKer_eq_lossRef _ _ (fun i k => Cert.ReferenceIdeal.RefValue.feat_real _ h0 (ix2 i k))

/-! ## The value both programs end with -/

/-- The common result, from the kernel's memory: the kernel's form of the loss of the arrays its region finds. -/
abbrev v0 (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v9) :=
  fun _ => Cert.Spec.lossKer (fun i k => V m c Cert.KernelIdeal.main_v4 (ix2 i k)) (fun i => V m c Cert.KernelIdeal.main_v7 (ix2 i (0 : Fin 1)))

/-- The reference's half of the comparison: from a memory that agrees with the kernel's on the arguments, the
    reference ends with that value and its own arguments unchanged. -/
theorem ref_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v32) = v0 m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (by
        rw [(hagree c).1, (hagree c).2]
        exact funext fun _ => (loss_bridge m c hpre).symm), (h c).2⟩)
    (ref_run m' ρ')

end Cert.Bridge

end
-- ==== Proof.lean ====
/-
  The pairwise loss: for the 1024 stacked feature rows and tiled labels, the mean over the pairs `i < j` of
  `(‖fᵢ − fⱼ‖ / 2 − |ℓᵢ − ℓⱼ|)²`.

  The reference forms every difference `fᵢ − fⱼ`, squares and sums it, takes the root under a strict upper-triangular
  mask and sums all masked squared errors at once. The kernel walks the rows in four tiles of 256: per tile it takes
  the squared distances as `‖a‖² + ‖b‖² − 2 a·b` (one matrix product against all 1024 rows), masks with `row < column`
  in global coordinates, sums the tile, and adds the sum to a `1 × 1` accumulator it keeps across the four grid
  points (reset at the first); the last point divides by the number of pairs `523776` and stores the quotient.

  On the extended reals the two are one number when the inputs are finite: expanding the square and distributing the
  sum over the 128 features turns `Σ (a − b)²` into `Σ a² + Σ b² − 2 Σ a b` (this is where finiteness is used), the
  masks agree index by index, and a sum over the 1024 rows is the sum of the four tiles' sums.

  The frames: the pipeline stages the feature matrix through two windows (a row tile, and the whole matrix) and the
  label column likewise, so each of the two arrays is held in halves, one half per window, while the region runs; the
  accumulator is carried in the region's invariant from point to point; after the region one reshape moves the
  `1 × 1` result into the scalar returned.
-/
import proofs.«100146_j50757923504321_1_alg».proof.Defs
import proofs.«100146_j50757923504321_1_alg».proof.Proof.Gen.Kernel
import proofs.«100146_j50757923504321_1_alg».proof.Proof.Gen.KernelIdeal
import proofs.«100146_j50757923504321_1_alg».proof.Proof.Gen.ReferenceIdeal
import proofs.«100146_j50757923504321_1_alg».proof.Proof.Gen.Pre_finite_inputs
import proofs.«100146_j50757923504321_1_alg».proof.Proof.K.Launch
import proofs.«100146_j50757923504321_1_alg».proof.Proof.K.Data
import proofs.«100146_j50757923504321_1_alg».proof.Proof.KI.Launch
import proofs.«100146_j50757923504321_1_alg».proof.Proof.KI.Loss
import proofs.«100146_j50757923504321_1_alg».proof.Proof.Bridge

noncomputable section

namespace Cert.Proof

open Idealize.ShloMosaic Idealize.SL.Sem Idealize.ShloMosaic.TcCoe Idealize.ShloMosaic.ValueIdx

/-- The word-level program runs to the end and leaves its two arguments unchanged. -/
theorem frame_k : Cert.frame_Kernel := fun m ρ _ =>
  (θ_run (Cert.Kernel.defs (F := Bits)) _ _).mono (fun _ h c => (h c).2)
    (Cert.Kernel.Frame.run_shared m ρ (Cert.Kernel.Frame.dats m) (fun c => (Cert.Kernel.Frame.body_obligation m c).loose)
      (fun _ _ => rfl) (Cert.Kernel.Frame.q_eq m) (Cert.Kernel.Frame.A_eq m) (Cert.Kernel.Frame.hin m) (Cert.Kernel.Frame.hout m))

/-- So does its reading on the extended reals. -/
theorem frame_ki : Cert.frame_KernelIdeal := fun m ρ _ =>
  (θ_run (Cert.KernelIdeal.defs (F := Ideal)) _ _).mono (fun _ h c => (h c).2)
    (Cert.KernelIdeal.Frame.run_shared m ρ (Cert.KernelIdeal.Frame.dats m) (fun c => (Cert.KernelIdeal.Frame.body_obligation m c).loose)
      (fun _ _ => rfl) (Cert.KernelIdeal.Frame.q_eq m) (Cert.KernelIdeal.Frame.A_eq m) (Cert.KernelIdeal.Frame.hin m) (Cert.KernelIdeal.Frame.hout m))

/-- Nothing was rewritten between the two readings of the kernel. -/
theorem preserves : Cert.preserves_Kernel_KernelIdeal := trivial

/-- The scalar the kernel's program returns: the reshape of the `1 × 1` result array, which holds the kernel-form loss. -/
theorem kernel_value (m : (ℓ : Loc Cert.KernelIdeal.nD Cert.KernelIdeal.τ Cert.KernelIdeal.sig) → Buf (Elt Ideal) ℓ)
    (c : Dev Cert.KernelIdeal.nD) (W : Valuation Cert.KernelIdeal.τ Cert.KernelIdeal.sig (Elt Ideal))
    (hW : W (Proc.devRef .tc Cert.KernelIdeal.main_v8) = (Cert.KernelIdeal.Frame.dats m 0 c).arrAt 4 Cert.KernelIdeal.cfg0.N) :
    StableHlo.after (Cert.KernelIdeal.Gen.hostOps1 (F := Ideal)) W (Proc.devRef .tc Cert.KernelIdeal.main_v9)
      = Cert.Bridge.v0 m c := by
  after_results
  rw [hW, Cert.KernelIdeal.Frame.final_o, Cert.KernelIdeal.Frame.result_loss]
  rfl

/-- Both programs, from memories that agree on the arguments, end with the same loss. -/
theorem algebraic : Cert.algebraic_KernelIdeal_ReferenceIdeal := by
  intro m ρ m' ρ' hpre hagree
  refine ⟨Cert.Bridge.v0 m, ?_, Cert.Bridge.ref_half m m' ρ' hpre hagree⟩
  refine (θ_run (Cert.KernelIdeal.defs (F := Ideal)) _ _).mono (fun _ h c => ?_)
    (Cert.KernelIdeal.Frame.run_shared m ρ (Cert.KernelIdeal.Frame.dats m) (fun c => (Cert.KernelIdeal.Frame.body_obligation m c).loose)
      (fun _ _ => rfl) (Cert.KernelIdeal.Frame.q_eq m) (Cert.KernelIdeal.Frame.A_eq m) (Cert.KernelIdeal.Frame.hin m) (Cert.KernelIdeal.Frame.hout m))
  obtain ⟨⟨W, hW, h9⟩, h01⟩ := h c
  exact ⟨h9.trans (kernel_value m c W hW), h01⟩

theorem claim : Cert.Claim :=
  ⟨Cert.Kernel.Gen.facts, Cert.KernelIdeal.Gen.facts, Cert.ReferenceIdeal.Gen.facts, Cert.Pre_finite_inputs.Gen.facts,
    frame_k, frame_ki, Cert.Bridge.frame_ri, preserves, algebraic⟩

end Cert.Proof

end
